-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S2x200000 : Shape := ⟨2, ![2, 200000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x64 .f32) (main_arg1 : IVec S2x800000 32) (main_arg2 : IVec S2x200000 32) (main_arg3 : FVec F S64x128 .f32) (main_arg4 : FVec F S64x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x64 : Shape := ⟨2, ![50000, 64]⟩
abbrev S2x800000 : Shape := ⟨2, ![2, 800000]⟩
abbrev S2x200000 : Shape := ⟨2, ![2, 200000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S1x128 : Shape := ⟨2, ![1, 128]⟩
abbrev S50000x1 : Shape := ⟨2, ![50000, 1]⟩
abbrev S50000x128 : Shape := ⟨2, ![50000, 128]⟩
abbrev S5000x64 : Shape := ⟨2, ![5000, 64]⟩
abbrev S5000x1 : Shape := ⟨2, ![5000, 1]⟩
abbrev S5000x128 : Shape := ⟨2, ![5000, 128]⟩
abbrev S800000x128 : Shape := ⟨2, ![800000, 128]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200704x64 : Shape := ⟨2, ![200704, 64]⟩
abbrev S200704 : Shape := ⟨1, ![200704]⟩
abbrev S1024x64 : Shape := ⟨2, ![1024, 64]⟩
abbrev S1024 : Shape := ⟨1, ![1024]⟩

abbrev nBuf : Space → Nat
  | .hbm => 100
  | .vmem => 39
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S2x200000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S1x128, .f32⟩
  | .hbm, ⟨36, _⟩ => ⟨S50000x1, .f32⟩
  | .hbm, ⟨37, _⟩ => ⟨S50000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S1x128, .f32⟩
  | .hbm, ⟨52, _⟩ => ⟨S50000x1, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S1x64, .f32⟩
  | .hbm, ⟨68, _⟩ => ⟨S50000x1, .f32⟩
  | .hbm, ⟨69, _⟩ => ⟨S50000x64, .f32⟩
  | .hbm, ⟨70, _⟩ => ⟨S1x200000, .i32⟩
  | .hbm, ⟨71, _⟩ => ⟨S200000, .i32⟩
  | .hbm, ⟨72, _⟩ => ⟨S1x200000, .i32⟩
  | .hbm, ⟨73, _⟩ => ⟨S200000, .i32⟩
  | .hbm, ⟨74, _⟩ => ⟨S_, .i32⟩
  | .hbm, ⟨75, _⟩ => ⟨S200000, .i32⟩
  | .hbm, ⟨76, _⟩ => ⟨S200000, .i1⟩
  | .hbm, ⟨77, _⟩ => ⟨S_, .i32⟩
  | .hbm, ⟨78, _⟩ => ⟨S200000, .i32⟩
  | .hbm, ⟨79, _⟩ => ⟨S200000, .i32⟩
  | .hbm, ⟨80, _⟩ => ⟨S200000, .i32⟩
  | .hbm, ⟨81, _⟩ => ⟨S200000x1, .i32⟩
  | .hbm, ⟨82, _⟩ => ⟨S200000x64, .f32⟩
  | .hbm, ⟨83, _⟩ => ⟨S_, .i32⟩
  | .hbm, ⟨84, _⟩ => ⟨S200000, .i32⟩
  | .hbm, ⟨85, _⟩ => ⟨S200000, .i1⟩
  | .hbm, ⟨86, _⟩ => ⟨S_, .i32⟩
  | .hbm, ⟨87, _⟩ => ⟨S200000, .i32⟩
  | .hbm, ⟨88, _⟩ => ⟨S200000, .i32⟩
  | .hbm, ⟨89, _⟩ => ⟨S200000, .i32⟩
  | .hbm, ⟨90, _⟩ => ⟨S200000x1, .i32⟩
  | .hbm, ⟨91, _⟩ => ⟨S200000x64, .f32⟩
  | .hbm, ⟨92, _⟩ => ⟨S_, .i32⟩
  | .hbm, ⟨93, _⟩ => ⟨S_, .f32⟩
  | .hbm, ⟨94, _⟩ => ⟨S200704x64, .f32⟩
  | .hbm, ⟨95, _⟩ => ⟨S_, .i32⟩
  | .hbm, ⟨96, _⟩ => ⟨S_, .f32⟩
  | .hbm, ⟨97, _⟩ => ⟨S200704x64, .f32⟩
  | .hbm, ⟨98, _⟩ => ⟨S200704, .f32⟩
  | .hbm, ⟨99, _⟩ => ⟨S200000, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x128, .f32⟩
  | .local _ .vmem, ⟨7, _⟩ => ⟨S64x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S128x64, .f32⟩
  | .local _ .vmem, ⟨29, _⟩ => ⟨S128x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S1024x64, .f32⟩
  | .local _ .vmem, ⟨34, _⟩ => ⟨S1024x64, .f32⟩
  | .local _ .vmem, ⟨35, _⟩ => ⟨S1024x64, .f32⟩
  | .local _ .vmem, ⟨36, _⟩ => ⟨S1024x64, .f32⟩
  | .local _ .vmem, ⟨37, _⟩ => ⟨S1024, .f32⟩
  | .local _ .vmem, ⟨38, _⟩ => ⟨S1024, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_call0_v0 : Ref sig .tc := ⟨.hbm, 93, rfl⟩
abbrev main_v65 : Ref sig .tc := ⟨.hbm, 94, rfl⟩
abbrev main_c_14 : Ref sig .tc := ⟨.hbm, 95, rfl⟩
abbrev main_call1_v0 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![196], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  ![arg0.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S128_S1x128 : S128.ShapeCasts S1x128
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  pads_S200000x64_S200704x64_07040_000 : S200000x64.Pads (![0, 0] : Fin 2 → Nat) ![704, 0] ![0, 0] S200704x64
  h_S_ : 0 < S_.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  inb_S1024_S1024_0 : ∀ a, (![0] : Fin 1 → Nat) a + S1024.size a ≤ S1024.size a
  h_S1024 : 0 < S1024.numel
  slices_S200704_S200000_0 : S200704.Slices ![0] S200000
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S200000x1_S200000x64_1_0_n_n_0_1_164_wf : GatherDims.WF S50000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S200704x64.size a
  hwx3_0 : ∀ i : grid3.Coords, EltTy.bits .f32 = 32 ∨ (Rect.block (s := S200704x64) S1024x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S200704x64.size a
  hwx3_1 : ∀ i : grid3.Coords, EltTy.bits .f32 = 32 ∨ (Rect.block (s := S200704x64) S1024x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024.size a ≤ S200704.size a
  hwx3_2 : ∀ i : grid3.Coords, EltTy.bits .f32 = 32 ∨ (Rect.block (s := S200704) S1024.size (cc3_transform_2 i) (hinb3_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

abbrev win0_0 : Pipeline.Window sig grid0 :=
  Pipeline.Window.ofSpec (Memref.whole main_v17) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v65) S1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S2x200000 : Shape := ⟨2, ![2, 200000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 140
  | .vmem => 0
  | .smem => 0
  | _ => 0

abbrev hbmTy0_0 (i : Nat) : BufTy := match i % 128 with
  | 0 => ⟨S50000x64, .f32⟩
  | 1 => ⟨S2x800000, .i32⟩
  | 2 => ⟨S2x200000, .i32⟩
  | 3 => ⟨S64x128, .f32⟩
  | 4 => ⟨S64x128, .f32⟩
  | 5 => ⟨S128, .f32⟩
  | 6 => ⟨S128x128, .f32⟩
  | 7 => ⟨S128x128, .f32⟩
  | 8 => ⟨S128, .f32⟩
  | 9 => ⟨S128x64, .f32⟩
  | 10 => ⟨S128x64, .f32⟩
  | 11 => ⟨S64, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S_, .f32⟩
  | 26 => ⟨S50000x64, .f32⟩
  | 27 => ⟨S800000x1, .i32⟩
  | 28 => ⟨S50000x64, .f32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x64, .f32⟩
  | 40 => ⟨S50000x64, .f32⟩
  | 41 => ⟨S50000x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S_, .f32⟩
  | 64 => ⟨S800000, .f32⟩
  | 65 => ⟨S_, .f32⟩
  | 66 => ⟨S50000, .f32⟩
  | 67 => ⟨S800000x1, .i32⟩
  | 68 => ⟨S50000, .f32⟩
  | 69 => ⟨S_, .f32⟩
  | 70 => ⟨S50000, .f32⟩
  | 71 => ⟨S50000, .f32⟩
  | 72 => ⟨S50000x1, .f32⟩
  | 73 => ⟨S50000x128, .f32⟩
  | 74 => ⟨S50000x128, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S_, .f32⟩
  | 98 => ⟨S800000, .f32⟩
  | 99 => ⟨S_, .f32⟩
  | 100 => ⟨S50000, .f32⟩
  | 101 => ⟨S800000x1, .i32⟩
  | 102 => ⟨S50000, .f32⟩
  | 103 => ⟨S_, .f32⟩
  | 104 => ⟨S50000, .f32⟩
  | 105 => ⟨S50000, .f32⟩
  | 106 => ⟨S50000x1, .f32⟩
  | 107 => ⟨S50000x128, .f32⟩
  | 108 => ⟨S50000x128, .f32⟩
  | 109 => ⟨S50000x64, .f32⟩
  | 110 => ⟨S50000x64, .f32⟩
  | 111 => ⟨S50000x64, .f32⟩
  | 112 => ⟨S1x64, .f32⟩
  | 113 => ⟨S50000x64, .f32⟩
  | 114 => ⟨S50000x64, .f32⟩
  | 115 => ⟨S1x200000, .i32⟩
  | 116 => ⟨S200000, .i32⟩
  | 117 => ⟨S_, .i32⟩
  | 118 => ⟨S200000, .i32⟩
  | 119 => ⟨S200000, .i1⟩
  | 120 => ⟨S_, .i32⟩
  | 121 => ⟨S200000, .i32⟩
  | 122 => ⟨S200000, .i32⟩
  | 123 => ⟨S200000, .i32⟩
  | 124 => ⟨S200000x1, .i32⟩
  | 125 => ⟨S200000x64, .f32⟩
  | 126 => ⟨S1x200000, .i32⟩
  | 127 => ⟨S200000, .i32⟩
  | _ => ⟨S50000x64, .f32⟩

abbrev hbmTy0_1 (i : Nat) : BufTy := match i % 128 with
  | 0 => ⟨S_, .i32⟩
  | 1 => ⟨S200000, .i32⟩
  | 2 => ⟨S200000, .i1⟩
  | 3 => ⟨S_, .i32⟩
  | 4 => ⟨S200000, .i32⟩
  | 5 => ⟨S200000, .i32⟩
  | 6 => ⟨S200000, .i32⟩
  | 7 => ⟨S200000x1, .i32⟩
  | 8 => ⟨S200000x64, .f32⟩
  | 9 => ⟨S200000x64, .f32⟩
  | 10 => ⟨S_, .f32⟩
  | 11 => ⟨S200000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_16 : Ref sig .tc := ⟨.hbm, 117, rfl⟩
abbrev main_v83 : Ref sig .tc := ⟨.hbm, 118, rfl⟩
abbrev main_v84 : Ref sig .tc := ⟨.hbm, 119, rfl⟩
abbrev main_c_17 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_c_18 : Ref sig .tc := ⟨.hbm, 128, rfl⟩
abbrev main_v92 : Ref sig .tc := ⟨.hbm, 129, rfl⟩
abbrev main_v93 : Ref sig .tc := ⟨.hbm, 130, rfl⟩
abbrev main_c_19 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_20 : Ref sig .tc := ⟨.hbm, 138, rfl⟩
abbrev main_v100 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x64_S200000_d1 : S200000x64.ReducesTo [1] S200000
  h_S_ : 0 < S_.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S200000x1_S200000x64_1_0_n_n_0_1_164_wf : GatherDims.WF S50000x64 S200000x1 S200000x64 [1] [0] [] [0] [] 1 ![1, 64]

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

class Facts : Prop extends Facts₀ where

variable [Facts]
-- ==== Proof.Spec.lean ====
/-
  What the program computes, as two functions over plain index types.

  A mean-aggregation layer, row by row: entry (r, j) of the result is
      act ( Σ_k (agg (r, k) / max (deg r) 1) · Wl (k, j)  +  Σ_k h (r, k) · Wr (k, j)  +  b j ),
  where act is max(·, 0) for a layer with an activation and the identity otherwise. The degree arrives as a
  column [M, 1] and the bias as a row [1, N], the way the blocked program stages them.

  The edge score: entry e of the result is 0 + Σ_k zs (e, k) · zt (e, k).

  The two float literals stay as their bit patterns: both programs spell the same words.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The literal one and the literal zero, as both programs spell them. -/
abbrev one : EReal := Ideal.ofBits .f32 0x3F800000#32
abbrev zero : EReal := Ideal.ofBits .f32 0x00000000#32

/-- The activation of a layer: max(·, 0) or nothing. -/
def act (relu : Bool) (x : EReal) : EReal := if relu then max x zero else x

/-- One mean-aggregation layer, entry by entry. -/
def dense (M K N : Nat) (relu : Bool)
    (agg : (⟨2, ![M, K]⟩ : Shape).Idx → EReal) (deg : (⟨2, ![M, 1]⟩ : Shape).Idx → EReal)
    (h : (⟨2, ![M, K]⟩ : Shape).Idx → EReal) (Wl Wr : (⟨2, ![K, N]⟩ : Shape).Idx → EReal)
    (b : (⟨2, ![1, N]⟩ : Shape).Idx → EReal) : (⟨2, ![M, N]⟩ : Shape).Idx → EReal :=
  fun i => act relu
    ((∑ k : Fin K, Ideal.div (agg (ix2 (i 0) k)) (max (deg (ix2 (i 0) 0)) one) * Wl (ix2 k (i 1)))
      + (∑ k : Fin K, h (ix2 (i 0) k) * Wr (ix2 k (i 1)))
      + b (ix2 0 (i 1)))

/-- The edge score, entry by entry. -/
def score (R K : Nat) (zs zt : (⟨2, ![R, K]⟩ : Shape).Idx → EReal) : (⟨1, ![R]⟩ : Shape).Idx → EReal :=
  fun i => zero + ∑ k : Fin K, zs (ix2 (i 0) k) * zt (ix2 (i 0) k)

end Cert.Spec

end
-- ==== Proof.KChain.lean ====
import proofs.«135867_j55937654063333_1_alg».proof.KernelIdeal
import proofs.«135867_j55937654063333_1_alg».proof.Proof.Gen.KernelIdeal
import proofs.«135867_j55937654063333_1_alg».proof.Proof.Spec
import Idealize.ShloMosaic.Lib.ValueIdx

noncomputable section

open scoped BigOperators

namespace Cert.KernelIdeal.Host

open Cert.KernelIdeal Cert.KernelIdeal.Gen
open Idealize.ShloMosaic Idealize.ShloMosaic.TcCoe Idealize.ShloMosaic.ValueIdx

/-- Integer and float arrays of a shape, at the exact instance. -/
abbrev IA (s : Shape) := (⟨s, .i32⟩ : BufTy).Contents (Elt Ideal)
abbrev FA (s : Shape) := (⟨s, .f32⟩ : BufTy).Contents (Elt Ideal)

/-! ## The host chains of @main, as the program spells them -/

/-- Row `r` of an edge list, as a vector of 800000 node numbers. -/
def srcRow (ei : IA S2x800000) : IA S800000 :=
  shapeCast _ (extractStridedSlice S1x800000 ![0, 0] ei slices_S2x800000_S1x800000_0_0) shapeCasts_S1x800000_S800000
def tgtRow (ei : IA S2x800000) : IA S800000 :=
  shapeCast _ (extractStridedSlice S1x800000 ![1, 0] ei slices_S2x800000_S1x800000_1_0) shapeCasts_S1x800000_S800000

/-- A negative node number counts from the end: n < 0 becomes n + 50000. -/
def wrap800 (s : IA S800000) : IA S800000 :=
  select (cmpi .slt s (broadcastInDim S800000 ![] bcast_S_S800000 (constantI S_ 32 0#32)))
    (addi s (broadcastInDim S800000 ![] bcast_S_S800000 (constantI S_ 32 50000#32))) s

/-- The gather's start indices (sources, wrapped) and the scatter's indices (targets, as given), as columns. -/
def srcCol (ei : IA S2x800000) : IA S800000x1 := broadcastInDim S800000x1 ![0] bcast_S800000_S800000x1_0 (wrap800 (srcRow ei))
def tgtCol (ei : IA S2x800000) : IA S800000x1 := broadcastInDim S800000x1 ![0] bcast_S800000_S800000x1_0 (tgtRow ei)

/-- The in-degree of every node: ones scattered onto zeros at the targets. -/
def deg (ei : IA S2x800000) : FA S50000 :=
  Host.scatterAdd (F := Ideal) scatter_S50000_S800000x1_S800000_n_0_0_1 (broadcastInDim S50000 ![] bcast_S_S50000 (constant (F := Ideal) S_ .f32 0x00000000#32))
    (tgtCol ei) (broadcastInDim S800000 ![] bcast_S_S800000 (constant (F := Ideal) S_ .f32 0x3F800000#32))

/-- The neighbour sums of a feature table: the sources' rows scattered onto zeros at the targets. -/
def agg64 (h : FA S50000x64) (ei : IA S2x800000) : FA S50000x64 :=
  Host.scatterAdd (F := Ideal) scatter_S50000x64_S800000x1_S800000x64_1_0_0_1 (broadcastInDim S50000x64 ![] bcast_S_S50000x64 (constant (F := Ideal) S_ .f32 0x00000000#32))
    (tgtCol ei) (Host.gather gather_S50000x64_S800000x1_S800000x64_1_0_n_n_0_1_164 h (srcCol ei))
def agg128 (h : FA S50000x128) (ei : IA S2x800000) : FA S50000x128 :=
  Host.scatterAdd (F := Ideal) scatter_S50000x128_S800000x1_S800000x128_1_0_0_1 (broadcastInDim S50000x128 ![] bcast_S_S50000x128 (constant (F := Ideal) S_ .f32 0x00000000#32))
    (tgtCol ei) (Host.gather gather_S50000x128_S800000x1_S800000x128_1_0_n_n_0_1_1128 h (srcCol ei))

/-- The label edges' endpoints, wrapped, as columns. -/
def lblRow0 (eli : IA S2x200000) : IA S200000 :=
  shapeCast _ (extractStridedSlice S1x200000 ![0, 0] eli slices_S2x200000_S1x200000_0_0) shapeCasts_S1x200000_S200000
def lblRow1 (eli : IA S2x200000) : IA S200000 :=
  shapeCast _ (extractStridedSlice S1x200000 ![1, 0] eli slices_S2x200000_S1x200000_1_0) shapeCasts_S1x200000_S200000
def wrap200 (s : IA S200000) : IA S200000 :=
  select (cmpi .slt s (broadcastInDim S200000 ![] bcast_S_S200000 (constantI S_ 32 0#32)))
    (addi s (broadcastInDim S200000 ![] bcast_S_S200000 (constantI S_ 32 50000#32))) s
def lblCol0 (eli : IA S2x200000) : IA S200000x1 := broadcastInDim S200000x1 ![0] bcast_S200000_S200000x1_0 (wrap200 (lblRow0 eli))
def lblCol1 (eli : IA S2x200000) : IA S200000x1 := broadcastInDim S200000x1 ![0] bcast_S200000_S200000x1_0 (wrap200 (lblRow1 eli))

/-! ## The three layers and the scores, over those chains -/

def layer1 (x : FA S50000x64) (ei : IA S2x800000) (Wl Wr : FA S64x128) (b : FA S128) : FA S50000x128 :=
  Cert.Spec.dense 50000 64 128 true (agg64 x ei) (fun i => deg ei (ix1 (i 0))) x Wl Wr (fun i => b (ix1 (i 1)))
def layer2 (h : FA S50000x128) (ei : IA S2x800000) (Wl Wr : FA S128x128) (b : FA S128) : FA S50000x128 :=
  Cert.Spec.dense 50000 128 128 true (agg128 h ei) (fun i => deg ei (ix1 (i 0))) h Wl Wr (fun i => b (ix1 (i 1)))
def layer3 (h : FA S50000x128) (ei : IA S2x800000) (Wl Wr : FA S128x64) (b : FA S64) : FA S50000x64 :=
  Cert.Spec.dense 50000 128 64 false (agg128 h ei) (fun i => deg ei (ix1 (i 0))) h Wl Wr (fun i => b (ix1 (i 1)))

/-- The program's result as one function of its twelve arguments. -/
def out (x : FA S50000x64) (ei : IA S2x800000) (eli : IA S2x200000) (Wl1 Wr1 : FA S64x128) (b1 : FA S128)
    (Wl2 Wr2 : FA S128x128) (b2 : FA S128) (Wl3 Wr3 : FA S128x64) (b3 : FA S64) : FA S200000 :=
  let z := layer3 (layer2 (layer1 x ei Wl1 Wr1 b1) ei Wl2 Wr2 b2) ei Wl3 Wr3 b3
  Cert.Spec.score 200000 64
    (Host.gather gather_S50000x64_S200000x1_S200000x64_1_0_n_n_0_1_164 z (lblCol0 eli))
    (Host.gather gather_S50000x64_S200000x1_S200000x64_1_0_n_n_0_1_164 z (lblCol1 eli))

end Cert.KernelIdeal.Host

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.KRegion0.lean ====
import proofs.«135867_j55937654063333_1_alg».proof.Proof.Gen.KernelIdeal.Frame
import proofs.«135867_j55937654063333_1_alg».proof.Proof.Spec
import proofs.«135867_j55937654063333_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's result at one entry of a block

Row y of a block depends on row y of the three row-blocked inputs only: the aggregate's row divided by that row's
degree lifted to at least one, times the left weights; the features' row times the right weights; the bias; then the
cut at zero. The narrowing of the products' operands changes no extended real. -/

/-- Both products contract the left operand's columns against the right operand's rows. -/
theorem dot_eq : dot_S5000x64_S64x128_S5000x128_1_0_0_1_n_n = DotDims.plain 5000 64 128 := rfl

/-- A degree column [5000, 1] spread along 64 lanes reads, at (y, k), the column's entry of row y. -/
theorem spread_col (v : (⟨2, ![5000, 1]⟩ : Shape).Idx → EReal) (h : (⟨2, ![5000, 1]⟩ : Shape).Broadcasts ⟨2, ![5000, 64]⟩)
    (y : Fin 5000) (k : Fin 64) : broadcastTo ⟨2, ![5000, 64]⟩ v h (ix2 y k) = v (ix2 y (0 : Fin 1)) := by
  refine broadcastTo_apply v h (ix2 y k) (ix2 y (0 : Fin 1)) fun ax => ?_
  match ax with
  | ⟨0, _⟩ => rfl
  | ⟨1, _⟩ => rfl

/-- The body's result at row y, column j of the block: both products summed over the 64 features, the bias added,
    negative values cut to zero; the aggregate is divided, row by row, by the degree lifted to at least one. -/
theorem payload_apply (x0 : Vec Ideal S5000x64 .f32) (x1 : Vec Ideal S5000x1 .f32) (x2 : Vec Ideal S5000x64 .f32)
    (x3 : Vec Ideal S64x128 .f32) (x4 : Vec Ideal S64x128 .f32) (x5 : Vec Ideal S1x128 .f32) (y : Fin 5000) (j : Fin 128) :
    k0_pay1 (F := Ideal) x1 x0 x2 x3 x4 x5 (ix2 y j)
      = Cert.Spec.act true
          ((∑ k : Fin 64, Ideal.div (x0 (ix2 y k)) (max (x1 (ix2 y 0)) Cert.Spec.one) * x3 (ix2 k j))
            + (∑ k : Fin 64, x2 (ix2 y k) * x4 (ix2 k j))
            + x5 (ix2 0 j)) := by
  unfold k0_pay1
  rw [maximumf_apply, addf_apply, addf_apply, broadcast_apply, dot_eq]
  unfold Idealize.ShloMosaic.matmul
  rw [RowDims.matmul_plain_zero_apply, RowDims.matmul_plain_zero_apply, broadcastTo_1b_ab_apply, shapeCast_self]
  simp only [truncf_apply, divf_apply, shapeCast_self, spread_col, maximumf_apply, broadcast_apply]
  rfl

/-- One entry of a block, against the layer's entry of the arrays: when row y of each row-blocked input is row r of
    its array and the weights and the bias are the arrays', the body's result at (y, j) is the layer at (r, j). -/
theorem block_entry (x0 : Vec Ideal S5000x64 .f32) (x1 : Vec Ideal S5000x1 .f32) (x2 : Vec Ideal S5000x64 .f32)
    (x3 : Vec Ideal S64x128 .f32) (x4 : Vec Ideal S64x128 .f32) (x5 : Vec Ideal S1x128 .f32)
    (A0 : S50000x64.Idx → EReal) (A1 : S50000x1.Idx → EReal) (A2 : S50000x64.Idx → EReal)
    (A3 A4 : S64x128.Idx → EReal) (A5 : S1x128.Idx → EReal) (y : Fin 5000) (j : Fin 128) (r : Fin 50000)
    (h0 : ∀ k : Fin 64, x0 (ix2 y k) = A0 (ix2 r k)) (h1 : x1 (ix2 y (0 : Fin 1)) = A1 (ix2 r (0 : Fin 1)))
    (h2 : ∀ k : Fin 64, x2 (ix2 y k) = A2 (ix2 r k)) (h3 : x3 = A3) (h4 : x4 = A4) (h5 : x5 = A5) :
    k0_pay1 (F := Ideal) x1 x0 x2 x3 x4 x5 (ix2 y j) = Cert.Spec.dense 50000 64 128 true A0 A1 A2 A3 A4 A5 (ix2 r j) := by
  rw [payload_apply]
  subst h3 h4 h5
  simp only [h0, h1, h2]
  rfl

/-! ## The windows over the ten grid points -/

/-- The zero offsets of a whole-buffer access, as a constant function. -/
theorem hz : (![0, 0] : Fin 2 → Nat) = fun _ => 0 := funext fun a => by fin_cases a <;> rfl

/-- The index maps over the ten grid points: the three row-blocked inputs (aggregate, degree, features) sit on the
    output's row block; the two weight matrices and the bias are one block each; the output's row block at point t is t,
    its column block 0. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block as rows of its array -/

/-- Row y of the aggregate's block at point t is row 5000·t + y of the aggregate. -/
theorem agg_rows (c : Dev nD) (t : Fin cfg0.N) (y : Fin 5000) (k : Fin 64) (r : Fin 50000) (hr : r.val = 5000 * t.val + y.val) :
    (iblk0 (F := Ideal) V c 0 t : Vec Ideal S5000x64 .f32) (ix2 y k) = (V c main_v17 : S50000x64.Idx → EReal) (ix2 r k) := by
  obtain ⟨e00, e01, e10, e11, e20, e21, e30, e31, e40, e41, e50, e51, e60, e61⟩ := idx_facts t
  unfold iblk0
  rw [View.read_apply]
  show V c main_v17 _ = V c main_v17 _
  congr 1
  funext a
  apply Fin.ext
  match a with
  | ⟨0, _⟩ => show win0_0.index t (0 : Fin 2) * 5000 + 1 * y.val = r.val; omega
  | ⟨1, _⟩ => show win0_0.index t (1 : Fin 2) * 64 + 1 * k.val = k.val; omega

/-- Row y of the degree column's block at point t is row 5000·t + y of the degree column. -/
theorem deg_rows (c : Dev nD) (t : Fin cfg0.N) (y : Fin 5000) (r : Fin 50000) (hr : r.val = 5000 * t.val + y.val) :
    (iblk0 (F := Ideal) V c 1 t : Vec Ideal S5000x1 .f32) (ix2 y (0 : Fin 1)) = (V c main_v19 : S50000x1.Idx → EReal) (ix2 r (0 : Fin 1)) := by
  obtain ⟨e00, e01, e10, e11, e20, e21, e30, e31, e40, e41, e50, e51, e60, e61⟩ := idx_facts t
  unfold iblk0
  rw [View.read_apply]
  show V c main_v19 _ = V c main_v19 _
  congr 1
  funext a
  apply Fin.ext
  match a with
  | ⟨0, _⟩ => show win0_1.index t (0 : Fin 2) * 5000 + 1 * y.val = r.val; omega
  | ⟨1, _⟩ => show win0_1.index t (1 : Fin 2) * 1 + 1 * 0 = 0; omega

/-- Row y of the features' block at point t is row 5000·t + y of the features. -/
theorem feat_rows (c : Dev nD) (t : Fin cfg0.N) (y : Fin 5000) (k : Fin 64) (r : Fin 50000) (hr : r.val = 5000 * t.val + y.val) :
    (iblk0 (F := Ideal) V c 2 t : Vec Ideal S5000x64 .f32) (ix2 y k) = (V c main_arg0 : S50000x64.Idx → EReal) (ix2 r k) := by
  obtain ⟨e00, e01, e10, e11, e20, e21, e30, e31, e40, e41, e50, e51, e60, e61⟩ := idx_facts t
  unfold iblk0
  rw [View.read_apply]
  show V c main_arg0 _ = V c main_arg0 _
  congr 1
  funext a
  apply Fin.ext
  match a with
  | ⟨0, _⟩ => show win0_2.index t (0 : Fin 2) * 5000 + 1 * y.val = r.val; omega
  | ⟨1, _⟩ => show win0_2.index t (1 : Fin 2) * 64 + 1 * k.val = k.val; omega

/-- The left weight matrix is one block: every point reads all of it. -/
theorem wl_whole (c : Dev nD) (t : Fin cfg0.N) :
    (iblk0 (F := Ideal) V c 3 t : Vec Ideal S64x128 .f32) = (V c main_arg3 : S64x128.Idx → EReal) := by
  obtain ⟨e00, e01, e10, e11, e20, e21, e30, e31, e40, e41, e50, e51, e60, e61⟩ := idx_facts t
  funext i
  unfold iblk0
  rw [View.read_apply]
  show V c main_arg3 _ = V c main_arg3 _
  congr 1
  funext a
  apply Fin.ext
  match a with
  | ⟨0, _⟩ => show win0_3.index t (0 : Fin 2) * 64 + 1 * (i 0).val = (i 0).val; omega
  | ⟨1, _⟩ => show win0_3.index t (1 : Fin 2) * 128 + 1 * (i 1).val = (i 1).val; omega

/-- The right weight matrix is one block: every point reads all of it. -/
theorem wr_whole (c : Dev nD) (t : Fin cfg0.N) :
    (iblk0 (F := Ideal) V c 4 t : Vec Ideal S64x128 .f32) = (V c main_arg4 : S64x128.Idx → EReal) := by
  obtain ⟨e00, e01, e10, e11, e20, e21, e30, e31, e40, e41, e50, e51, e60, e61⟩ := idx_facts t
  funext i
  unfold iblk0
  rw [View.read_apply]
  show V c main_arg4 _ = V c main_arg4 _
  congr 1
  funext a
  apply Fin.ext
  match a with
  | ⟨0, _⟩ => show win0_4.index t (0 : Fin 2) * 64 + 1 * (i 0).val = (i 0).val; omega
  | ⟨1, _⟩ => show win0_4.index t (1 : Fin 2) * 128 + 1 * (i 1).val = (i 1).val; omega

/-- The bias row is one block: every point reads all of it. -/
theorem bias_whole (c : Dev nD) (t : Fin cfg0.N) :
    (iblk0 (F := Ideal) V c 5 t : Vec Ideal S1x128 .f32) = (V c main_v18 : S1x128.Idx → EReal) := by
  obtain ⟨e00, e01, e10, e11, e20, e21, e30, e31, e40, e41, e50, e51, e60, e61⟩ := idx_facts t
  funext i
  unfold iblk0
  rw [View.read_apply]
  show V c main_v18 _ = V c main_v18 _
  congr 1
  funext a
  apply Fin.ext
  match a with
  | ⟨0, _⟩ => show win0_5.index t (0 : Fin 2) * 1 + 1 * (i 0).val = (i 0).val; omega
  | ⟨1, _⟩ => show win0_5.index t (1 : Fin 2) * 128 + 1 * (i 1).val = (i 1).val; omega

/-! ## From the blocks to the array -/

/-- What point t writes back is its row block of the layer of the arrays the region is entered with. -/
theorem flushed_eq (c : Dev nD) (t : Fin cfg0.N) :
    (dat0 (F := Ideal) V c).flushed 6 t
      = ((cfg0.win 6).blk t).view.read (Elt Ideal)
          (Cert.Spec.dense 50000 64 128 true (V c main_v17) (V c main_v19) (V c main_arg0) (V c main_arg3) (V c main_arg4) (V c main_v18)) := by
  show (cfg0.win 6).cut (grid0.coords t) ((dat0 V c).after 6 t) = _
  rw [after0_6]
  unfold out0_6
  rw [View.canon_unit_zero hz]
  simp only [View.ld_unit_zero (S := S5000x1) hz, View.ld_unit_zero (S := S5000x64) hz, View.ld_unit_zero (S := S64x128) hz, View.ld_unit_zero (S := S1x128) hz]
  obtain ⟨e00, e01, e10, e11, e20, e21, e30, e31, e40, e41, e50, e51, e60, e61⟩ := idx_facts t
  have ht : t.val < 10 := Nat.lt_of_lt_of_eq t.isLt N_0
  funext i
  obtain ⟨y, j, rfl⟩ : ∃ (y : Fin 5000) (j : Fin 128), i = ix2 y j := ⟨i 0, i 1, eq_ix2 i⟩
  have hy : y.val < 5000 := y.isLt
  refine (block_entry _ _ _ _ _ _ _ _ _ _ _ _ y j ⟨5000 * t.val + y.val, by omega⟩
    (fun k => agg_rows V c t y k _ rfl) (deg_rows V c t y _ rfl) (fun k => feat_rows V c t y k _ rfl)
    (wl_whole V c t) (wr_whole V c t) (bias_whole V c t)).trans ?_
  rw [View.read_apply]
  show Cert.Spec.dense 50000 64 128 true _ _ _ _ _ _ _ = Cert.Spec.dense 50000 64 128 true _ _ _ _ _ _ _
  congr 1
  funext a
  apply Fin.ext
  match a with
  | ⟨0, _⟩ => show 5000 * t.val + y.val = win0_6.index t (0 : Fin 2) * 5000 + 1 * y.val; omega
  | ⟨1, _⟩ => show j.val = win0_6.index t (1 : Fin 2) * 128 + 1 * j.val; omega

/-- An entry of the output lies in point t's block exactly when each coordinate lies in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v20).slice (win0_6.rect t)).set ↔ _
  rw [View.set_slice_whole, Rect.mem_set_unit]
  exact Iff.rfl

/-- The ten row blocks fill the output: row r is written back by point r / 5000. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, Nat.lt_of_lt_of_eq (by omega : (i 0).val / 5000 < 10) N_0.symm⟩, rfl⟩
  obtain ⟨e00, e01, e10, e11, e20, e21, e30, e31, e40, e41, e50, e51, e60, e61⟩ := idx_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- Region 0's output array after the region: the first layer (64 → 128, with activation) of the arrays the region is entered with. -/
theorem final (c : Dev nD) :
    (dat0 (F := Ideal) V c).arrAt 6 cfg0.N
      = Cert.Spec.dense 50000 64 128 true (V c main_v17) (V c main_v19) (V c main_arg0) (V c main_arg3) (V c main_arg4) (V c main_v18) :=
  (dat0 (F := Ideal) V c).arrAt_eq_of_cover 6 _ (fun t _ => flushed_eq V c t) cover

end Cert.KernelIdeal.Region0

end
-- ==== Proof.KRegion1.lean ====
import proofs.«135867_j55937654063333_1_alg».proof.Proof.Gen.KernelIdeal.Frame
import proofs.«135867_j55937654063333_1_alg».proof.Proof.Spec
import proofs.«135867_j55937654063333_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's arithmetic, entry by entry -/

/-- A column `[a, 1]` broadcast along its rows to `[a, b]` reads, at `(p, c)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The block product's dimension numbers are the plain contraction `[5000, 128] × [128, 128]`. -/
theorem dot_eq : dot_S5000x128_S128x128_S5000x128_1_0_0_1_n_n = DotDims.plain 5000 128 128 := rfl

/-- A block product into the zero accumulator, entry by entry: the sum over the 128 contracted coordinates. -/
theorem product_apply {φ₁ φ₂ : FTy} (a : FVec Ideal S5000x128 φ₁) (b : FVec Ideal S128x128 φ₂) (y : Fin 5000) (j : Fin 128) :
    FloatOps.matmul dot_S5000x128_S128x128_S5000x128_1_0_0_1_n_n none a b (constant (F := Ideal) S5000x128 .f32 0x00000000#32) (ix2 y j)
      = ∑ k : Fin 128, a (ix2 y k) * b (ix2 k j) := by
  rw [dot_eq]
  exact RowDims.matmul_plain_zero_apply none a b y j

/-- The aggregated block divided, row by row, by the degree clamped below at one. -/
theorem mean_apply (x0 : FVec Ideal S5000x128 .f32) (x1 : FVec Ideal S5000x1 .f32)
    (h0 : S5000x128.ShapeCasts S5000x128) (h1 : S5000x1.ShapeCasts S5000x1) (hb : S5000x1.Broadcasts S5000x128)
    (y : Fin 5000) (k : Fin 128) :
    divf (shapeCast S5000x128 x0 h0)
        (broadcastTo S5000x128 (maximumf (shapeCast S5000x1 x1 h1) (broadcast S5000x1 (Scalar.ofBits (F := Ideal) .f32 0x3F800000#32))) hb) (ix2 y k)
      = Ideal.div (x0 (ix2 y k)) (max (x1 (ix2 y 0)) Cert.Spec.one) := by
  rw [shapeCast_self, shapeCast_self, divf_apply, broadcastTo_col_apply, maximumf_apply]
  rfl

/-- The body's stored value at entry `(y, j)` of the block: the two products' sums and the bias of column `j`, clamped
    below at zero. -/
theorem payload_apply (x0 : FVec Ideal S5000x128 .f32) (x1 : FVec Ideal S5000x1 .f32) (x2 : FVec Ideal S5000x128 .f32)
    (x3 x4 : FVec Ideal S128x128 .f32) (x5 : FVec Ideal S1x128 .f32) (y : Fin 5000) (j : Fin 128) :
    k1_pay1 (F := Ideal) x1 x0 x2 x3 x4 x5 (ix2 y j)
      = Cert.Spec.act true ((∑ k : Fin 128, Ideal.div (x0 (ix2 y k)) (max (x1 (ix2 y 0)) Cert.Spec.one) * x3 (ix2 k j))
          + (∑ k : Fin 128, x2 (ix2 y k) * x4 (ix2 k j)) + x5 (ix2 0 j)) := by
  unfold k1_pay1
  show max (_ + _ + _) _ = max (_ + _ + _) _
  refine congrArg₂ max (congrArg₂ (· + ·) (congrArg₂ (· + ·) ?_ ?_) ?_) rfl
  · refine (product_apply _ _ y j).trans (Finset.sum_congr rfl fun k _ => ?_)
    exact congrArg₂ (· * ·) (mean_apply x0 x1 _ _ _ y k) rfl
  · refine (product_apply _ _ y j).trans (Finset.sum_congr rfl fun k _ => ?_)
    exact congrArg₂ (· * ·) (congrFun (shapeCast_self x2 _) (ix2 y k)) rfl
  · refine (broadcastTo_1b_ab_apply _ _ y j).trans ?_
    exact congrFun (shapeCast_self x5 _) (ix2 0 j)

/-- The layer at entry `(r, j)`, its row and column named. -/
theorem dense_apply {M K N : Nat} (relu : Bool)
    (agg : (⟨2, ![M, K]⟩ : Shape).Idx → EReal) (deg : (⟨2, ![M, 1]⟩ : Shape).Idx → EReal)
    (h : (⟨2, ![M, K]⟩ : Shape).Idx → EReal) (Wl Wr : (⟨2, ![K, N]⟩ : Shape).Idx → EReal)
    (b : (⟨2, ![1, N]⟩ : Shape).Idx → EReal) (r : Fin M) (j : Fin N) :
    Cert.Spec.dense M K N relu agg deg h Wl Wr b (ix2 r j)
      = Cert.Spec.act relu ((∑ k : Fin K, Ideal.div (agg (ix2 r k)) (max (deg (ix2 r 0)) Cert.Spec.one) * Wl (ix2 k j))
          + (∑ k : Fin K, h (ix2 r k) * Wr (ix2 k j)) + b (ix2 0 j)) := rfl

/-! ## Where each block sits in its array -/

theorem hz : (![0, 0] : Fin 2 → Nat) = fun _ => 0 := funext fun a => by
  match a with
  | ⟨0, _⟩ => rfl
  | ⟨1, _⟩ => rfl

/-- The printed index maps, decided over the ten points: the aggregate's, the degree column's and the features' row
    block is the output's, on their column axis every block index is zero, and the weights and the bias stay at their
    one block; the output's row block is one of the ten. -/
theorem index_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 9 ∧ win1_6.index t (1 : Fin 2) = 0 :=
  (by decide +kernel : ∀ t : Fin grid1.N, _)

/-- Every one of the ten row blocks is some point's. -/
theorem index_onto : ∀ q : Fin 10, ∃ t : Fin cfg1.N, win1_6.index t = ![q.val, 0] :=
  (by decide +kernel : ∀ q : Fin 10, ∃ t : Fin grid1.N, win1_6.index t = ![q.val, 0])

section Blocks

variable (V : (c : Dev nD) → (b : Ref sig .tc) → Buf (Elt Ideal) ((c : Thread nD τ).loc b))

/-- The aggregate's block at point `t` holds rows `5000 q … 5000 q + 4999` of the array, `q` the point's row block. -/
theorem agg_block (c : Dev nD) (t : Fin cfg1.N) (y : Fin 5000) (k : Fin 128) (r : Fin 50000)
    (hr : r.val = win1_6.index t (0 : Fin 2) * 5000 + y.val) :
    (iblk1 V c 0 t : Vec Ideal S5000x128 .f32) (ix2 y k) = (V c main_v30 : S50000x128.Idx → EReal) (ix2 r k) := by
  obtain ⟨e00, e01, -⟩ := index_facts t
  show (V c main_v30 : S50000x128.Idx → EReal) (((cfg1.win 0).blk t).view.emb (ix2 y k)) = _
  refine congrArg _ (funext fun a => Fin.ext ?_)
  match a with
  | ⟨0, _⟩ => show win1_0.index t (0 : Fin 2) * 5000 + 1 * y.val = r.val; omega
  | ⟨1, _⟩ => show win1_0.index t (1 : Fin 2) * 128 + 1 * k.val = k.val; omega

/-- The degree column's block at point `t` holds the same rows of the column. -/
theorem deg_block (c : Dev nD) (t : Fin cfg1.N) (y : Fin 5000) (r : Fin 50000)
    (hr : r.val = win1_6.index t (0 : Fin 2) * 5000 + y.val) :
    (iblk1 V c 1 t : Vec Ideal S5000x1 .f32) (ix2 y 0) = (V c main_v32 : S50000x1.Idx → EReal) (ix2 r 0) := by
  obtain ⟨-, -, e10, e11, -⟩ := index_facts t
  show (V c main_v32 : S50000x1.Idx → EReal) (((cfg1.win 1).blk t).view.emb (ix2 y 0)) = _
  refine congrArg _ (funext fun a => Fin.ext ?_)
  match a with
  | ⟨0, _⟩ => show win1_1.index t (0 : Fin 2) * 5000 + 1 * y.val = r.val; omega
  | ⟨1, _⟩ => show win1_1.index t (1 : Fin 2) * 1 + 1 * 0 = 0; omega

/-- The features' block at point `t` holds the same rows of the features. -/
theorem feat_block (c : Dev nD) (t : Fin cfg1.N) (y : Fin 5000) (k : Fin 128) (r : Fin 50000)
    (hr : r.val = win1_6.index t (0 : Fin 2) * 5000 + y.val) :
    (iblk1 V c 2 t : Vec Ideal S5000x128 .f32) (ix2 y k) = (V c main_v20 : S50000x128.Idx → EReal) (ix2 r k) := by
  obtain ⟨-, -, -, -, e20, e21, -⟩ := index_facts t
  show (V c main_v20 : S50000x128.Idx → EReal) (((cfg1.win 2).blk t).view.emb (ix2 y k)) = _
  refine congrArg _ (funext fun a => Fin.ext ?_)
  match a with
  | ⟨0, _⟩ => show win1_2.index t (0 : Fin 2) * 5000 + 1 * y.val = r.val; omega
  | ⟨1, _⟩ => show win1_2.index t (1 : Fin 2) * 128 + 1 * k.val = k.val; omega

/-- The left weights' one block is the whole matrix. -/
theorem wl_block (c : Dev nD) (t : Fin cfg1.N) (k : Fin 128) (j : Fin 128) :
    (iblk1 V c 3 t : Vec Ideal S128x128 .f32) (ix2 k j) = (V c main_arg6 : S128x128.Idx → EReal) (ix2 k j) := by
  obtain ⟨-, -, -, -, -, -, e30, e31, -⟩ := index_facts t
  show (V c main_arg6 : S128x128.Idx → EReal) (((cfg1.win 3).blk t).view.emb (ix2 k j)) = _
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * j.val = j.val; omega

/-- The right weights' one block is the whole matrix. -/
theorem wr_block (c : Dev nD) (t : Fin cfg1.N) (k : Fin 128) (j : Fin 128) :
    (iblk1 V c 4 t : Vec Ideal S128x128 .f32) (ix2 k j) = (V c main_arg7 : S128x128.Idx → EReal) (ix2 k j) := by
  obtain ⟨-, -, -, -, -, -, -, -, e40, e41, -⟩ := index_facts t
  show (V c main_arg7 : S128x128.Idx → EReal) (((cfg1.win 4).blk t).view.emb (ix2 k j)) = _
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * j.val = j.val; omega

/-- The bias row's one block is the whole row. -/
theorem bias_block (c : Dev nD) (t : Fin cfg1.N) (j : Fin 128) :
    (iblk1 V c 5 t : Vec Ideal S1x128 .f32) (ix2 0 j) = (V c main_v31 : S1x128.Idx → EReal) (ix2 0 j) := by
  obtain ⟨-, -, -, -, -, -, -, -, -, -, e50, e51, -⟩ := index_facts t
  show (V c main_v31 : S1x128.Idx → EReal) (((cfg1.win 5).blk t).view.emb (ix2 0 j)) = _
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * j.val = j.val; omega

/-- Entry `(y, j)` of the output's block at point `t` is entry `(5000 q + y, j)` of the array. -/
theorem out_emb (t : Fin cfg1.N) (y : Fin 5000) (j : Fin 128) :
    ∃ r : Fin 50000, r.val = win1_6.index t (0 : Fin 2) * 5000 + y.val
      ∧ (((cfg1.win 6).blk t).view.emb (ix2 y j) : S50000x128.Idx) = ix2 r j := by
  obtain ⟨-, -, -, -, -, -, -, -, -, -, -, -, e60, e61⟩ := index_facts t
  refine ⟨⟨win1_6.index t (0 : Fin 2) * 5000 + y.val, by have := y.isLt; omega⟩, rfl, funext fun a => Fin.ext ?_⟩
  match a with
  | ⟨0, _⟩ => show win1_6.index t (0 : Fin 2) * 5000 + 1 * y.val = win1_6.index t (0 : Fin 2) * 5000 + y.val; omega
  | ⟨1, _⟩ => show win1_6.index t (1 : Fin 2) * 128 + 1 * j.val = j.val; omega

/-- What point `t` writes back is its block of the layer of the entry arrays. -/
theorem flushed_eq (c : Dev nD) (t : Fin cfg1.N) :
    (dat1 (F := Ideal) V c).flushed 6 t = ((cfg1.win 6).blk t).view.read (Elt Ideal)
      (Cert.Spec.dense 50000 128 128 true (V c main_v30) (V c main_v32) (V c main_v20) (V c main_arg6) (V c main_arg7) (V c main_v31)) := by
  show (cfg1.win 6).cut (grid1.coords t) ((dat1 (F := Ideal) V c).after 6 t) = _
  rw [after1_6]
  unfold out1_6
  rw [View.canon_unit_zero hz]
  simp only [View.ld_unit_zero (S := S5000x1) hz, View.ld_unit_zero (S := S5000x128) hz, View.ld_unit_zero (S := S128x128) hz,
    View.ld_unit_zero (S := S1x128) hz]
  funext i
  obtain ⟨y, j, rfl⟩ : ∃ (y : Fin 5000) (j : Fin 128), i = ix2 y j := ⟨i 0, i 1, eq_ix2 i⟩
  obtain ⟨r, hr, he⟩ := out_emb t y j
  show k1_pay1 (F := Ideal) (iblk1 V c 1 t) (iblk1 V c 0 t) (iblk1 V c 2 t) (iblk1 V c 3 t) (iblk1 V c 4 t) (iblk1 V c 5 t) (ix2 y j)
    = Cert.Spec.dense 50000 128 128 true (V c main_v30) (V c main_v32) (V c main_v20) (V c main_arg6) (V c main_arg7) (V c main_v31)
        (((cfg1.win 6).blk t).view.emb (ix2 y j))
  rw [he]
  refine (payload_apply (iblk1 V c 0 t) (iblk1 V c 1 t) (iblk1 V c 2 t) (iblk1 V c 3 t) (iblk1 V c 4 t) (iblk1 V c 5 t) y j).trans ?_
  refine Eq.trans ?_ (dense_apply true (V c main_v30) (V c main_v32) (V c main_v20) (V c main_arg6) (V c main_arg7) (V c main_v31) r j).symm
  rw [deg_block V c t y r hr, bias_block V c t j]
  refine congrArg (Cert.Spec.act true) (congrArg₂ (· + ·) (congrArg₂ (· + ·)
    (Finset.sum_congr rfl fun k _ => ?_) (Finset.sum_congr rfl fun k _ => ?_)) rfl)
  · rw [agg_block V c t y k r hr, wl_block V c t k j]
  · rw [feat_block V c t y k r hr, wr_block V c t k j]

end Blocks

/-! ## From the blocks to the array -/

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v33).slice (win1_6.rect t)).set ↔ _
  rw [View.set_slice_whole, Rect.mem_set_unit]
  exact Iff.rfl

/-- Every entry of the array is in some point's block: row `r` in the block of the point whose row block is `r / 5000`. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := index_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

variable (V : (c : Dev nD) → (b : Ref sig .tc) → Buf (Elt Ideal) ((c : Thread nD τ).loc b))

/-- Region 1's output array after the region: the second layer (128 → 128, with activation) of the arrays the region is entered with. -/
theorem final (c : Dev nD) :
    (dat1 (F := Ideal) V c).arrAt 6 cfg1.N
      = Cert.Spec.dense 50000 128 128 true (V c main_v30) (V c main_v32) (V c main_v20) (V c main_arg6) (V c main_arg7) (V c main_v31) := by
  exact (dat1 (F := Ideal) V c).arrAt_eq_of_cover 6 _ (fun t _ => flushed_eq V c t) cover

end Cert.KernelIdeal.Region1

end
-- ==== Proof.KRegion2.lean ====
import proofs.«135867_j55937654063333_1_alg».proof.Proof.Gen.KernelIdeal.Frame
import proofs.«135867_j55937654063333_1_alg».proof.Proof.Spec
import proofs.«135867_j55937654063333_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's arithmetic, entry by entry -/

/-- A column `[a, 1]` broadcast along its rows to `[a, b]` reads, at `(p, c)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The block product's dimension numbers are the plain contraction `[5000, 128] × [128, 64]`. -/
theorem dot_eq : dot_S5000x128_S128x64_S5000x64_1_0_0_1_n_n = DotDims.plain 5000 128 64 := rfl

/-- A block product into the zero accumulator, entry by entry: the sum over the 128 contracted coordinates. -/
theorem product_apply {φ₁ φ₂ : FTy} (a : FVec Ideal S5000x128 φ₁) (b : FVec Ideal S128x64 φ₂) (y : Fin 5000) (j : Fin 64) :
    FloatOps.matmul dot_S5000x128_S128x64_S5000x64_1_0_0_1_n_n none a b (constant (F := Ideal) S5000x64 .f32 0x00000000#32) (ix2 y j)
      = ∑ k : Fin 128, a (ix2 y k) * b (ix2 k j) := by
  rw [dot_eq]
  exact RowDims.matmul_plain_zero_apply none a b y j

/-- The aggregated block divided, row by row, by the degree clamped below at one. -/
theorem mean_apply (x0 : FVec Ideal S5000x128 .f32) (x1 : FVec Ideal S5000x1 .f32)
    (h0 : S5000x128.ShapeCasts S5000x128) (h1 : S5000x1.ShapeCasts S5000x1) (hb : S5000x1.Broadcasts S5000x128)
    (y : Fin 5000) (k : Fin 128) :
    divf (shapeCast S5000x128 x0 h0)
        (broadcastTo S5000x128 (maximumf (shapeCast S5000x1 x1 h1) (broadcast S5000x1 (Scalar.ofBits (F := Ideal) .f32 0x3F800000#32))) hb) (ix2 y k)
      = Ideal.div (x0 (ix2 y k)) (max (x1 (ix2 y 0)) Cert.Spec.one) := by
  rw [shapeCast_self, shapeCast_self, divf_apply, broadcastTo_col_apply, maximumf_apply]
  rfl

/-- The body's stored value at entry `(y, j)` of the block: the two products' sums and the bias of column `j`. -/
theorem payload_apply (x0 : FVec Ideal S5000x128 .f32) (x1 : FVec Ideal S5000x1 .f32) (x2 : FVec Ideal S5000x128 .f32)
    (x3 x4 : FVec Ideal S128x64 .f32) (x5 : FVec Ideal S1x64 .f32) (y : Fin 5000) (j : Fin 64) :
    k2_pay1 (F := Ideal) x1 x0 x2 x3 x4 x5 (ix2 y j)
      = Cert.Spec.act false ((∑ k : Fin 128, Ideal.div (x0 (ix2 y k)) (max (x1 (ix2 y 0)) Cert.Spec.one) * x3 (ix2 k j))
          + (∑ k : Fin 128, x2 (ix2 y k) * x4 (ix2 k j)) + x5 (ix2 0 j)) := by
  unfold k2_pay1
  show _ + _ + _ = _ + _ + _
  refine congrArg₂ (· + ·) (congrArg₂ (· + ·) ?_ ?_) ?_
  · refine (product_apply _ _ y j).trans (Finset.sum_congr rfl fun k _ => ?_)
    exact congrArg₂ (· * ·) (mean_apply x0 x1 _ _ _ y k) rfl
  · refine (product_apply _ _ y j).trans (Finset.sum_congr rfl fun k _ => ?_)
    exact congrArg₂ (· * ·) (congrFun (shapeCast_self x2 _) (ix2 y k)) rfl
  · refine (broadcastTo_1b_ab_apply _ _ y j).trans ?_
    exact congrFun (shapeCast_self x5 _) (ix2 0 j)

/-- The layer at entry `(r, j)`, its row and column named. -/
theorem dense_apply {M K N : Nat} (relu : Bool)
    (agg : (⟨2, ![M, K]⟩ : Shape).Idx → EReal) (deg : (⟨2, ![M, 1]⟩ : Shape).Idx → EReal)
    (h : (⟨2, ![M, K]⟩ : Shape).Idx → EReal) (Wl Wr : (⟨2, ![K, N]⟩ : Shape).Idx → EReal)
    (b : (⟨2, ![1, N]⟩ : Shape).Idx → EReal) (r : Fin M) (j : Fin N) :
    Cert.Spec.dense M K N relu agg deg h Wl Wr b (ix2 r j)
      = Cert.Spec.act relu ((∑ k : Fin K, Ideal.div (agg (ix2 r k)) (max (deg (ix2 r 0)) Cert.Spec.one) * Wl (ix2 k j))
          + (∑ k : Fin K, h (ix2 r k) * Wr (ix2 k j)) + b (ix2 0 j)) := rfl

/-! ## Where each block sits in its array -/

theorem hz : (![0, 0] : Fin 2 → Nat) = fun _ => 0 := funext fun a => by
  match a with
  | ⟨0, _⟩ => rfl
  | ⟨1, _⟩ => rfl

/-- The printed index maps, decided over the ten points: the aggregate's, the degree column's and the features' row
    block is the output's, on their column axis every block index is zero, and the weights and the bias stay at their
    one block; the output's row block is one of the ten. -/
theorem index_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 9 ∧ win2_6.index t (1 : Fin 2) = 0 :=
  (by decide +kernel : ∀ t : Fin grid2.N, _)

/-- Every one of the ten row blocks is some point's. -/
theorem index_onto : ∀ q : Fin 10, ∃ t : Fin cfg2.N, win2_6.index t = ![q.val, 0] :=
  (by decide +kernel : ∀ q : Fin 10, ∃ t : Fin grid2.N, win2_6.index t = ![q.val, 0])

section Blocks

variable (V : (c : Dev nD) → (b : Ref sig .tc) → Buf (Elt Ideal) ((c : Thread nD τ).loc b))

/-- The aggregate's block at point `t` holds rows `5000 q … 5000 q + 4999` of the array, `q` the point's row block. -/
theorem agg_block (c : Dev nD) (t : Fin cfg2.N) (y : Fin 5000) (k : Fin 128) (r : Fin 50000)
    (hr : r.val = win2_6.index t (0 : Fin 2) * 5000 + y.val) :
    (iblk2 V c 0 t : Vec Ideal S5000x128 .f32) (ix2 y k) = (V c main_v43 : S50000x128.Idx → EReal) (ix2 r k) := by
  obtain ⟨e00, e01, -⟩ := index_facts t
  show (V c main_v43 : S50000x128.Idx → EReal) (((cfg2.win 0).blk t).view.emb (ix2 y k)) = _
  refine congrArg _ (funext fun a => Fin.ext ?_)
  match a with
  | ⟨0, _⟩ => show win2_0.index t (0 : Fin 2) * 5000 + 1 * y.val = r.val; omega
  | ⟨1, _⟩ => show win2_0.index t (1 : Fin 2) * 128 + 1 * k.val = k.val; omega

/-- The degree column's block at point `t` holds the same rows of the column. -/
theorem deg_block (c : Dev nD) (t : Fin cfg2.N) (y : Fin 5000) (r : Fin 50000)
    (hr : r.val = win2_6.index t (0 : Fin 2) * 5000 + y.val) :
    (iblk2 V c 1 t : Vec Ideal S5000x1 .f32) (ix2 y 0) = (V c main_v45 : S50000x1.Idx → EReal) (ix2 r 0) := by
  obtain ⟨-, -, e10, e11, -⟩ := index_facts t
  show (V c main_v45 : S50000x1.Idx → EReal) (((cfg2.win 1).blk t).view.emb (ix2 y 0)) = _
  refine congrArg _ (funext fun a => Fin.ext ?_)
  match a with
  | ⟨0, _⟩ => show win2_1.index t (0 : Fin 2) * 5000 + 1 * y.val = r.val; omega
  | ⟨1, _⟩ => show win2_1.index t (1 : Fin 2) * 1 + 1 * 0 = 0; omega

/-- The features' block at point `t` holds the same rows of the features. -/
theorem feat_block (c : Dev nD) (t : Fin cfg2.N) (y : Fin 5000) (k : Fin 128) (r : Fin 50000)
    (hr : r.val = win2_6.index t (0 : Fin 2) * 5000 + y.val) :
    (iblk2 V c 2 t : Vec Ideal S5000x128 .f32) (ix2 y k) = (V c main_v33 : S50000x128.Idx → EReal) (ix2 r k) := by
  obtain ⟨-, -, -, -, e20, e21, -⟩ := index_facts t
  show (V c main_v33 : S50000x128.Idx → EReal) (((cfg2.win 2).blk t).view.emb (ix2 y k)) = _
  refine congrArg _ (funext fun a => Fin.ext ?_)
  match a with
  | ⟨0, _⟩ => show win2_2.index t (0 : Fin 2) * 5000 + 1 * y.val = r.val; omega
  | ⟨1, _⟩ => show win2_2.index t (1 : Fin 2) * 128 + 1 * k.val = k.val; omega

/-- The left weights' one block is the whole matrix. -/
theorem wl_block (c : Dev nD) (t : Fin cfg2.N) (k : Fin 128) (j : Fin 64) :
    (iblk2 V c 3 t : Vec Ideal S128x64 .f32) (ix2 k j) = (V c main_arg9 : S128x64.Idx → EReal) (ix2 k j) := by
  obtain ⟨-, -, -, -, -, -, e30, e31, -⟩ := index_facts t
  show (V c main_arg9 : S128x64.Idx → EReal) (((cfg2.win 3).blk t).view.emb (ix2 k j)) = _
  refine congrArg _ (funext fun a => Fin.ext ?_)
  match a with
  | ⟨0, _⟩ => show win2_3.index t (0 : Fin 2) * 128 + 1 * k.val = k.val; omega
  | ⟨1, _⟩ => show win2_3.index t (1 : Fin 2) * 64 + 1 * j.val = j.val; omega

/-- The right weights' one block is the whole matrix. -/
theorem wr_block (c : Dev nD) (t : Fin cfg2.N) (k : Fin 128) (j : Fin 64) :
    (iblk2 V c 4 t : Vec Ideal S128x64 .f32) (ix2 k j) = (V c main_arg10 : S128x64.Idx → EReal) (ix2 k j) := by
  obtain ⟨-, -, -, -, -, -, -, -, e40, e41, -⟩ := index_facts t
  show (V c main_arg10 : S128x64.Idx → EReal) (((cfg2.win 4).blk t).view.emb (ix2 k j)) = _
  refine congrArg _ (funext fun a => Fin.ext ?_)
  match a with
  | ⟨0, _⟩ => show win2_4.index t (0 : Fin 2) * 128 + 1 * k.val = k.val; omega
  | ⟨1, _⟩ => show win2_4.index t (1 : Fin 2) * 64 + 1 * j.val = j.val; omega

/-- The bias row's one block is the whole row. -/
theorem bias_block (c : Dev nD) (t : Fin cfg2.N) (j : Fin 64) :
    (iblk2 V c 5 t : Vec Ideal S1x64 .f32) (ix2 0 j) = (V c main_v44 : S1x64.Idx → EReal) (ix2 0 j) := by
  obtain ⟨-, -, -, -, -, -, -, -, -, -, e50, e51, -⟩ := index_facts t
  show (V c main_v44 : S1x64.Idx → EReal) (((cfg2.win 5).blk t).view.emb (ix2 0 j)) = _
  refine congrArg _ (funext fun a => Fin.ext ?_)
  match a with
  | ⟨0, _⟩ => show win2_5.index t (0 : Fin 2) * 1 + 1 * 0 = 0; omega
  | ⟨1, _⟩ => show win2_5.index t (1 : Fin 2) * 64 + 1 * j.val = j.val; omega

/-- Entry `(y, j)` of the output's block at point `t` is entry `(5000 q + y, j)` of the array. -/
theorem out_emb (t : Fin cfg2.N) (y : Fin 5000) (j : Fin 64) :
    ∃ r : Fin 50000, r.val = win2_6.index t (0 : Fin 2) * 5000 + y.val
      ∧ (((cfg2.win 6).blk t).view.emb (ix2 y j) : S50000x64.Idx) = ix2 r j := by
  obtain ⟨-, -, -, -, -, -, -, -, -, -, -, -, e60, e61⟩ := index_facts t
  refine ⟨⟨win2_6.index t (0 : Fin 2) * 5000 + y.val, by have := y.isLt; omega⟩, rfl, funext fun a => Fin.ext ?_⟩
  match a with
  | ⟨0, _⟩ => show win2_6.index t (0 : Fin 2) * 5000 + 1 * y.val = win2_6.index t (0 : Fin 2) * 5000 + y.val; omega
  | ⟨1, _⟩ => show win2_6.index t (1 : Fin 2) * 64 + 1 * j.val = j.val; omega

/-- What point `t` writes back is its block of the layer of the entry arrays. -/
theorem flushed_eq (c : Dev nD) (t : Fin cfg2.N) :
    (dat2 (F := Ideal) V c).flushed 6 t = ((cfg2.win 6).blk t).view.read (Elt Ideal)
      (Cert.Spec.dense 50000 128 64 false (V c main_v43) (V c main_v45) (V c main_v33) (V c main_arg9) (V c main_arg10) (V c main_v44)) := by
  show (cfg2.win 6).cut (grid2.coords t) ((dat2 (F := Ideal) V c).after 6 t) = _
  rw [after2_6]
  unfold out2_6
  rw [View.canon_unit_zero hz]
  simp only [View.ld_unit_zero (S := S5000x1) hz, View.ld_unit_zero (S := S5000x128) hz, View.ld_unit_zero (S := S128x64) hz,
    View.ld_unit_zero (S := S1x64) hz]
  funext i
  obtain ⟨y, j, rfl⟩ : ∃ (y : Fin 5000) (j : Fin 64), i = ix2 y j := ⟨i 0, i 1, eq_ix2 i⟩
  obtain ⟨r, hr, he⟩ := out_emb t y j
  show k2_pay1 (F := Ideal) (iblk2 V c 1 t) (iblk2 V c 0 t) (iblk2 V c 2 t) (iblk2 V c 3 t) (iblk2 V c 4 t) (iblk2 V c 5 t) (ix2 y j)
    = Cert.Spec.dense 50000 128 64 false (V c main_v43) (V c main_v45) (V c main_v33) (V c main_arg9) (V c main_arg10) (V c main_v44)
        (((cfg2.win 6).blk t).view.emb (ix2 y j))
  rw [he]
  refine (payload_apply (iblk2 V c 0 t) (iblk2 V c 1 t) (iblk2 V c 2 t) (iblk2 V c 3 t) (iblk2 V c 4 t) (iblk2 V c 5 t) y j).trans ?_
  refine Eq.trans ?_ (dense_apply false (V c main_v43) (V c main_v45) (V c main_v33) (V c main_arg9) (V c main_arg10) (V c main_v44) r j).symm
  rw [deg_block V c t y r hr, bias_block V c t j]
  refine congrArg (Cert.Spec.act false) (congrArg₂ (· + ·) (congrArg₂ (· + ·)
    (Finset.sum_congr rfl fun k _ => ?_) (Finset.sum_congr rfl fun k _ => ?_)) rfl)
  · rw [agg_block V c t y k r hr, wl_block V c t k j]
  · rw [feat_block V c t y k r hr, wr_block V c t k j]

end Blocks

/-! ## From the blocks to the array -/

/-- An index of the array is in point `t`'s block iff each coordinate is in the block's range on its axis. -/
theorem mem_blk (t : Fin cfg2.N) (i : S50000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v46).slice (win2_6.rect t)).set ↔ _
  rw [View.set_slice_whole, Rect.mem_set_unit]
  exact Iff.rfl

/-- Every entry of the array is in some point's block: row `r` in the block of the point whose row block is `r / 5000`. -/
theorem cover (i : S50000x64.Idx) :
    ∃ t : Fin cfg2.N, (cfg2.win 6).flush t = true ∧ i ∈ ((cfg2.win 6).blk t).view.set := by
  have hi0 : (i 0).val < 50000 := (i 0).isLt
  have hi1 : (i 1).val < 64 := (i 1).isLt
  obtain ⟨t, ht⟩ := index_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 64 ≤ (i 1).val ∧ (i 1).val < win2_6.index t (1 : Fin 2) * 64 + 64
    omega

variable (V : (c : Dev nD) → (b : Ref sig .tc) → Buf (Elt Ideal) ((c : Thread nD τ).loc b))

/-- Region 2's output array after the region: the third layer (128 → 64, no activation) of the arrays the region is entered with. -/
theorem final (c : Dev nD) :
    (dat2 (F := Ideal) V c).arrAt 6 cfg2.N
      = Cert.Spec.dense 50000 128 64 false (V c main_v43) (V c main_v45) (V c main_v33) (V c main_arg9) (V c main_arg10) (V c main_v44) := by
  exact (dat2 (F := Ideal) V c).arrAt_eq_of_cover 6 _ (fun t _ => flushed_eq V c t) cover

end Cert.KernelIdeal.Region2

end
-- ==== Proof.KHostA.lean ====
import proofs.«135867_j55937654063333_1_alg».proof.Proof.Gen.KernelIdeal.Frame
import proofs.«135867_j55937654063333_1_alg».proof.Proof.Spec
import proofs.«135867_j55937654063333_1_alg».proof.Proof.KChain
import proofs.«135867_j55937654063333_1_alg».proof.Proof.KRegion0
import proofs.«135867_j55937654063333_1_alg».proof.Proof.KRegion1
import proofs.«135867_j55937654063333_1_alg».proof.Proof.KRegion2
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- Proves, for a literal list of host operations and a literal reference, that no operation of the list writes the
    reference: each operation writes one reference, and two references are told apart by deciding. -/
local macro "untouched_by " ops:term : tactic =>
  `(tactic| (
    simp only [$ops:term, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## A reshape that adds a unit axis, read at an index -/

/-- A vector reshaped to a column reads, at `(i, u)`, the vector at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A layer whose degree arrives as a vector reshaped to a column and whose bias as a vector reshaped to a row is
    the layer over the two vectors read by coordinate: the column is only read at `(r, 0)`, the row at `(0, j)`. -/
theorem dense_col_row (M K N : Nat) (relu : Bool)
    (agg h : (⟨2, ![M, K]⟩ : Shape).Idx → EReal) (Wl Wr : (⟨2, ![K, N]⟩ : Shape).Idx → EReal)
    (d : (⟨1, ![M]⟩ : Shape).Idx → EReal) (b : (⟨1, ![N]⟩ : Shape).Idx → EReal)
    (hd : (⟨1, ![M]⟩ : Shape).ShapeCasts ⟨2, ![M, 1]⟩) (hb : (⟨1, ![N]⟩ : Shape).ShapeCasts ⟨2, ![1, N]⟩) :
    Cert.Spec.dense M K N relu agg (shapeCast ⟨2, ![M, 1]⟩ d hd) h Wl Wr (shapeCast ⟨2, ![1, N]⟩ b hb)
      = Cert.Spec.dense M K N relu agg (fun i => d (ix1 (i 0))) h Wl Wr (fun i => b (ix1 (i 1))) := by
  funext i
  have e1 : shapeCast ⟨2, ![M, 1]⟩ d hd (ix2 (i 0) 0) = d (ix1 (i 0)) := shapeCast_a_a1_apply d hd (i 0) 0
  have e2 : shapeCast ⟨2, ![1, N]⟩ b hb (ix2 0 (i 1)) = b (ix1 (i 1)) := shapeCast_a_1a_apply b hb 0 (i 1)
  unfold Cert.Spec.dense
  rw [e1, e2]
  rfl

/-! ## The first boundary: what region 0 is entered with

Buffers the first host stretch leaves as launched -/

set_option maxHeartbeats 400000 in
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by untouched_by hostOps0))
    _ = m ((c : Thread nD τ).loc main_arg0) := rfl

set_option maxHeartbeats 400000 in
theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by untouched_by hostOps0))
    _ = m ((c : Thread nD τ).loc main_arg3) := rfl

set_option maxHeartbeats 400000 in
theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by untouched_by hostOps0))
    _ = m ((c : Thread nD τ).loc main_arg4) := rfl

/-! ## Buffers the first host stretch computes, read as the chains of the launch contents -/

set_option maxHeartbeats 400000 in
/-- The source row of the edge list. -/
theorem W1_v1 (c : Dev nD) : (W1 m ρ c (Proc.devRef .tc main_v1) : IA S800000) = srcRow (m ((c : Thread nD τ).loc main_arg1)) := by
  show StableHlo.after hostOps0 (W0 m ρ c) (Proc.devRef .tc main_v1) = _
  after_results
  rfl

set_option maxHeartbeats 400000 in
/-- The target row of the edge list. -/
theorem W1_v3 (c : Dev nD) : (W1 m ρ c (Proc.devRef .tc main_v3) : IA S800000) = tgtRow (m ((c : Thread nD τ).loc main_arg1)) := by
  show StableHlo.after hostOps0 (W0 m ρ c) (Proc.devRef .tc main_v3) = _
  after_results
  rfl

set_option maxHeartbeats 400000 in
/-- The degree vector. -/
theorem W1_v7 (c : Dev nD) : (W1 m ρ c (Proc.devRef .tc main_v7) : FA S50000) = deg (m ((c : Thread nD τ).loc main_arg1)) := by
  show StableHlo.after hostOps0 (W0 m ρ c) (Proc.devRef .tc main_v7) = _
  after_results
  rfl

set_option maxHeartbeats 400000 in
/-- The neighbour sums of the input features. -/
theorem W1_v17 (c : Dev nD) : (W1 m ρ c (Proc.devRef .tc main_v17) : FA S50000x64) = agg64 (m ((c : Thread nD τ).loc main_arg0)) (m ((c : Thread nD τ).loc main_arg1)) := by
  show StableHlo.after hostOps0 (W0 m ρ c) (Proc.devRef .tc main_v17) = _
  after_results
  rfl

set_option maxHeartbeats 400000 in
/-- The first bias, reshaped to a row. -/
theorem W1_v18 (c : Dev nD) : (W1 m ρ c (Proc.devRef .tc main_v18) : FA S1x128) = shapeCast S1x128 (m ((c : Thread nD τ).loc main_arg5) : FA S128) shapeCasts_S128_S1x128 := by
  show StableHlo.after hostOps0 (W0 m ρ c) (Proc.devRef .tc main_v18) = _
  after_results
  rfl

set_option maxHeartbeats 400000 in
/-- The degree vector, reshaped to a column. -/
theorem W1_v19 (c : Dev nD) : (W1 m ρ c (Proc.devRef .tc main_v19) : FA S50000x1) = shapeCast S50000x1 (deg (m ((c : Thread nD τ).loc main_arg1))) shapeCasts_S50000_S50000x1 := by
  show StableHlo.after hostOps0 (W0 m ρ c) (Proc.devRef .tc main_v19) = _
  after_results
  rfl

/-- After region 0 the first layer's output buffer holds the first layer of the launch contents. -/
theorem h1_eq (c : Dev nD) :
    W2 m ρ c (Proc.devRef .tc main_v20) = layer1 (m ((c : Thread nD τ).loc main_arg0)) (m ((c : Thread nD τ).loc main_arg1)) (m ((c : Thread nD τ).loc main_arg3)) (m ((c : Thread nD τ).loc main_arg4)) (m ((c : Thread nD τ).loc main_arg5)) := by
  refine ((W2_arr m ρ c 6).trans (Cert.KernelIdeal.Region0.final (V1 m ρ) c)).trans ?_
  show Cert.Spec.dense 50000 64 128 true (W1 m ρ c (Proc.devRef .tc main_v17)) (W1 m ρ c (Proc.devRef .tc main_v19))
      (W1 m ρ c (Proc.devRef .tc main_arg0)) (W1 m ρ c (Proc.devRef .tc main_arg3)) (W1 m ρ c (Proc.devRef .tc main_arg4))
      (W1 m ρ c (Proc.devRef .tc main_v18)) = _
  rw [W1_v17, W1_v19, W1_arg0, W1_arg3, W1_arg4, W1_v18]
  exact dense_col_row 50000 64 128 true _ _ _ _ _ _ _ _

/-! ## The second boundary: what region 1 is entered with -/

/-- Region 0 leaves the source row, the target row and the degree as the first host stretch computed them. -/
theorem W2_v1 (c : Dev nD) : (W2 m ρ c (Proc.devRef .tc main_v1) : IA S800000) = srcRow (m ((c : Thread nD τ).loc main_arg1)) :=
  (W2_of_ne m ρ c main_v1 (by decide)).trans (W1_v1 m ρ c)
theorem W2_v3 (c : Dev nD) : (W2 m ρ c (Proc.devRef .tc main_v3) : IA S800000) = tgtRow (m ((c : Thread nD τ).loc main_arg1)) :=
  (W2_of_ne m ρ c main_v3 (by decide)).trans (W1_v3 m ρ c)
theorem W2_v7 (c : Dev nD) : (W2 m ρ c (Proc.devRef .tc main_v7) : FA S50000) = deg (m ((c : Thread nD τ).loc main_arg1)) :=
  (W2_of_ne m ρ c main_v7 (by decide)).trans (W1_v7 m ρ c)

set_option maxHeartbeats 400000 in
/-- An argument that neither the first host stretch nor region 0 writes is, after region 0, as launched. -/
theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by untouched_by hostOps0))
    _ = m ((c : Thread nD τ).loc main_arg6) := rfl
set_option maxHeartbeats 400000 in
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by untouched_by hostOps0))
    _ = m ((c : Thread nD τ).loc main_arg7) := rfl
set_option maxHeartbeats 400000 in
theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by untouched_by hostOps0))
    _ = m ((c : Thread nD τ).loc main_arg8) := rfl

set_option maxHeartbeats 400000 in
/-- The second host stretch does not write region 0's output, nor the second layer's weights. -/
theorem W3_v20 (c : Dev nD) : W3 m ρ c (Proc.devRef .tc main_v20) = W2 m ρ c (Proc.devRef .tc main_v20) :=
  StableHlo.after_of_forall_not_mem (b := Proc.devRef .tc main_v20) _ _ (List.forall_iff_forall_mem.mp (by untouched_by hostOps1))
set_option maxHeartbeats 400000 in
theorem W3_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by untouched_by hostOps1))).trans (W2_arg6 m ρ c)
set_option maxHeartbeats 400000 in
theorem W3_arg7 (c : Dev nD) : W3 m ρ c (Proc.devRef .tc main_arg7) = m ((c : Thread nD τ).loc main_arg7) :=
  (StableHlo.after_of_forall_not_mem (b := Proc.devRef .tc main_arg7) _ _ (List.forall_iff_forall_mem.mp (by untouched_by hostOps1))).trans (W2_arg7 m ρ c)

set_option maxHeartbeats 400000 in
/-- The neighbour sums of region 0's output. -/
theorem W3_v30 (c : Dev nD) : (W3 m ρ c (Proc.devRef .tc main_v30) : FA S50000x128) = agg128 (W2 m ρ c (Proc.devRef .tc main_v20)) (m ((c : Thread nD τ).loc main_arg1)) := by
  show StableHlo.after hostOps1 (W2 m ρ c) (Proc.devRef .tc main_v30) = _
  after_results
  rw [W2_v1, W2_v3]
  rfl

set_option maxHeartbeats 400000 in
/-- The second bias, reshaped to a row. -/
theorem W3_v31 (c : Dev nD) : (W3 m ρ c (Proc.devRef .tc main_v31) : FA S1x128) = shapeCast S1x128 (m ((c : Thread nD τ).loc main_arg8) : FA S128) shapeCasts_S128_S1x128 := by
  show StableHlo.after hostOps1 (W2 m ρ c) (Proc.devRef .tc main_v31) = _
  after_results
  rw [W2_arg8]
  rfl

set_option maxHeartbeats 400000 in
/-- The degree vector, reshaped to a column again. -/
theorem W3_v32 (c : Dev nD) : (W3 m ρ c (Proc.devRef .tc main_v32) : FA S50000x1) = shapeCast S50000x1 (deg (m ((c : Thread nD τ).loc main_arg1))) shapeCasts_S50000_S50000x1 := by
  show StableHlo.after hostOps1 (W2 m ρ c) (Proc.devRef .tc main_v32) = _
  after_results
  rw [W2_v7]
  rfl

/-- After region 1 the second layer's output buffer holds the second layer of what region 0 left. -/
theorem h2_eq (c : Dev nD) :
    W4 m ρ c (Proc.devRef .tc main_v33) = layer2 (W2 m ρ c (Proc.devRef .tc main_v20)) (m ((c : Thread nD τ).loc main_arg1)) (m ((c : Thread nD τ).loc main_arg6)) (m ((c : Thread nD τ).loc main_arg7)) (m ((c : Thread nD τ).loc main_arg8)) := by
  refine ((W4_arr m ρ c 6).trans (Cert.KernelIdeal.Region1.final (V3 m ρ) c)).trans ?_
  show Cert.Spec.dense 50000 128 128 true (W3 m ρ c (Proc.devRef .tc main_v30)) (W3 m ρ c (Proc.devRef .tc main_v32))
      (W3 m ρ c (Proc.devRef .tc main_v20)) (W3 m ρ c (Proc.devRef .tc main_arg6)) (W3 m ρ c (Proc.devRef .tc main_arg7))
      (W3 m ρ c (Proc.devRef .tc main_v31)) = _
  rw [W3_v30, W3_v32, W3_v20, W3_arg6, W3_arg7, W3_v31]
  exact dense_col_row 50000 128 128 true _ _ _ _ _ _ _ _

/-! ## The third boundary: what region 2 is entered with -/

set_option maxHeartbeats 400000 in
theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by untouched_by hostOps0))
    _ = m ((c : Thread nD τ).loc main_arg9) := rfl
set_option maxHeartbeats 400000 in
theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by untouched_by hostOps1))
    _ = m ((c : Thread nD τ).loc main_arg9) := W2_arg9 m ρ c

set_option maxHeartbeats 400000 in
theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by untouched_by hostOps0))
    _ = m ((c : Thread nD τ).loc main_arg10) := rfl
set_option maxHeartbeats 400000 in
theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by untouched_by hostOps1))
    _ = m ((c : Thread nD τ).loc main_arg10) := W2_arg10 m ρ c

set_option maxHeartbeats 400000 in
theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by untouched_by hostOps0))
    _ = m ((c : Thread nD τ).loc main_arg11) := rfl
set_option maxHeartbeats 400000 in
theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by untouched_by hostOps1))
    _ = m ((c : Thread nD τ).loc main_arg11) := W2_arg11 m ρ c

/- The second host stretch and region 1 leave the source row, the target row and the degree as they were. -/
set_option maxHeartbeats 400000 in
theorem W4_v1 (c : Dev nD) : (W4 m ρ c (Proc.devRef .tc main_v1) : IA S800000) = srcRow (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by untouched_by hostOps1))
    _ = srcRow (m ((c : Thread nD τ).loc main_arg1)) := W2_v1 m ρ c

set_option maxHeartbeats 400000 in
theorem W4_v3 (c : Dev nD) : (W4 m ρ c (Proc.devRef .tc main_v3) : IA S800000) = tgtRow (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by untouched_by hostOps1))
    _ = tgtRow (m ((c : Thread nD τ).loc main_arg1)) := W2_v3 m ρ c

set_option maxHeartbeats 400000 in
theorem W4_v7 (c : Dev nD) : (W4 m ρ c (Proc.devRef .tc main_v7) : FA S50000) = deg (m ((c : Thread nD τ).loc main_arg1)) :=
  calc W4 m ρ c (Proc.devRef .tc main_v7)
    _ = W3 m ρ c (Proc.devRef .tc main_v7) := W4_of_ne m ρ c main_v7 (by decide)
    _ = W2 m ρ c (Proc.devRef .tc main_v7) := StableHlo.after_of_forall_not_mem (b := Proc.devRef .tc main_v7) _ _ (List.forall_iff_forall_mem.mp (by untouched_by hostOps1))
    _ = deg (m ((c : Thread nD τ).loc main_arg1)) := W2_v7 m ρ c

set_option maxHeartbeats 400000 in
/-- The third host stretch does not write region 1's output, nor the third layer's weights. -/
theorem W5_v33 (c : Dev nD) : W5 m ρ c (Proc.devRef .tc main_v33) = W4 m ρ c (Proc.devRef .tc main_v33) :=
  StableHlo.after_of_forall_not_mem (b := Proc.devRef .tc main_v33) _ _ (List.forall_iff_forall_mem.mp (by untouched_by hostOps2))
set_option maxHeartbeats 400000 in
theorem W5_arg9 (c : Dev nD) : W5 m ρ c (Proc.devRef .tc main_arg9) = m ((c : Thread nD τ).loc main_arg9) :=
  (StableHlo.after_of_forall_not_mem (b := Proc.devRef .tc main_arg9) _ _ (List.forall_iff_forall_mem.mp (by untouched_by hostOps2))).trans (W4_arg9 m ρ c)
set_option maxHeartbeats 400000 in
theorem W5_arg10 (c : Dev nD) : W5 m ρ c (Proc.devRef .tc main_arg10) = m ((c : Thread nD τ).loc main_arg10) :=
  (StableHlo.after_of_forall_not_mem (b := Proc.devRef .tc main_arg10) _ _ (List.forall_iff_forall_mem.mp (by untouched_by hostOps2))).trans (W4_arg10 m ρ c)

set_option maxHeartbeats 400000 in
/-- The neighbour sums of region 1's output. -/
theorem W5_v43 (c : Dev nD) : (W5 m ρ c (Proc.devRef .tc main_v43) : FA S50000x128) = agg128 (W4 m ρ c (Proc.devRef .tc main_v33)) (m ((c : Thread nD τ).loc main_arg1)) := by
  show StableHlo.after hostOps2 (W4 m ρ c) (Proc.devRef .tc main_v43) = _
  after_results
  rw [W4_v1, W4_v3]
  rfl

set_option maxHeartbeats 400000 in
/-- The third bias, reshaped to a row. -/
theorem W5_v44 (c : Dev nD) : (W5 m ρ c (Proc.devRef .tc main_v44) : FA S1x64) = shapeCast S1x64 (m ((c : Thread nD τ).loc main_arg11) : FA S64) shapeCasts_S64_S1x64 := by
  show StableHlo.after hostOps2 (W4 m ρ c) (Proc.devRef .tc main_v44) = _
  after_results
  rw [W4_arg11]
  rfl

set_option maxHeartbeats 400000 in
/-- The degree vector, reshaped to a column once more. -/
theorem W5_v45 (c : Dev nD) : (W5 m ρ c (Proc.devRef .tc main_v45) : FA S50000x1) = shapeCast S50000x1 (deg (m ((c : Thread nD τ).loc main_arg1))) shapeCasts_S50000_S50000x1 := by
  show StableHlo.after hostOps2 (W4 m ρ c) (Proc.devRef .tc main_v45) = _
  after_results
  rw [W4_v7]
  rfl

/-- After region 2 the third layer's output buffer holds the third layer of what region 1 left. -/
theorem z_eq (c : Dev nD) :
    W6 m ρ c (Proc.devRef .tc main_v46) = layer3 (W4 m ρ c (Proc.devRef .tc main_v33)) (m ((c : Thread nD τ).loc main_arg1)) (m ((c : Thread nD τ).loc main_arg9)) (m ((c : Thread nD τ).loc main_arg10)) (m ((c : Thread nD τ).loc main_arg11)) := by
  refine ((W6_arr m ρ c 6).trans (Cert.KernelIdeal.Region2.final (V5 m ρ) c)).trans ?_
  show Cert.Spec.dense 50000 128 64 false (W5 m ρ c (Proc.devRef .tc main_v43)) (W5 m ρ c (Proc.devRef .tc main_v45))
      (W5 m ρ c (Proc.devRef .tc main_v33)) (W5 m ρ c (Proc.devRef .tc main_arg9)) (W5 m ρ c (Proc.devRef .tc main_arg10))
      (W5 m ρ c (Proc.devRef .tc main_v44)) = _
  rw [W5_v43, W5_v45, W5_v33, W5_arg9, W5_arg10, W5_v44]
  exact dense_col_row 50000 128 64 false _ _ _ _ _ _ _ _

end Cert.KernelIdeal.Host

end
-- ==== Proof.KRegion3.lean ====
import proofs.«135867_j55937654063333_1_alg».proof.Proof.Gen.KernelIdeal.Frame
import proofs.«135867_j55937654063333_1_alg».proof.Proof.Spec
import proofs.«135867_j55937654063333_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The lane sum of the entrywise product of two row blocks, at one row: the literal zero plus the 64 products. -/
theorem pay_apply (x0 x1 : Vec Ideal S1024x64 .f32) (y : Fin 1024) :
    k3_pay1 (F := Ideal) x0 x1 (ix1 y) = Cert.Spec.zero + ∑ k : Fin 64, x0 (ix2 y k) * x1 (ix2 y k) := by
  unfold k3_pay1
  simp only [shapeCast_self]
  refine (Ideal.multiReduction_add_single (mulf x0 x1) 0x00000000#32 reduces_S1024x64_S1024 (.inl rfl) rfl (ix1 y)).trans ?_
  have hl : ∀ k : Fin 64, reduces_S1024x64_S1024.lift (ix1 y) k = ix2 y k := fun k =>
    funext fun a => Fin.ext (by match a with | ⟨0, _⟩ => rfl | ⟨1, _⟩ => rfl)
  show ∑ k : Fin 64, mulf x0 x1 (reduces_S1024x64_S1024.lift (ix1 y) k) = Ideal.ofBits .f32 0x00000000#32 + _
  rw [Ideal.ofBits_zero_f32, zero_add]
  exact Finset.sum_congr rfl fun k _ => by rw [hl k]; rfl

/-- The three index maps over the 196 points: point t takes row block t of each table and of the output, and the
    tables' one lane block. -/
theorem row_block : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 1) = t.val :=
  (by decide +kernel : ∀ t : Fin grid3.N, _)

/-- The zero offset of a whole rank-1 block. -/
theorem zero_off1 : (![0] : Fin 1 → Nat) = fun _ => 0 := funext fun a => by fin_cases a; rfl
/-- The zero offset of a whole rank-2 block. -/
theorem zero_off2 : (![0, 0] : Fin 2 → Nat) = fun _ => 0 := funext fun a => by fin_cases a <;> rfl

variable (V : (c : Dev nD) → (b : Ref sig .tc) → Buf (Elt Ideal) ((c : Thread nD τ).loc b))

/-- Row y, lane k of the first table's block at point t is row 1024·t + y, lane k of that table. -/
theorem zs_block (c : Dev nD) (t : Fin cfg3.N) (y : Fin 1024) (k : Fin 64) (r : Fin 200704)
    (hr : r.val = t.val * 1024 + y.val) :
    (iblk3 (F := Ideal) V c 0 t : Vec Ideal S1024x64 .f32) (ix2 y k)
      = (V c main_v65 : S200704x64.Idx → EReal) (ix2 r k) := by
  obtain ⟨e0, e1, -, -, -⟩ := row_block t
  unfold iblk3
  show (V c main_v65 : S200704x64.Idx → EReal) (((cfg3.win 0).blk t).view.emb (ix2 y k)) = _
  refine congrArg (V c main_v65 : S200704x64.Idx → EReal) (funext fun a => Fin.ext ?_)
  match a with
  | ⟨0, _⟩ => show win3_0.index t (0 : Fin 2) * 1024 + 1 * y.val = r.val; omega
  | ⟨1, _⟩ => show win3_0.index t (1 : Fin 2) * 64 + 1 * k.val = k.val; omega

/-- Row y, lane k of the second table's block at point t is row 1024·t + y, lane k of that table. -/
theorem zt_block (c : Dev nD) (t : Fin cfg3.N) (y : Fin 1024) (k : Fin 64) (r : Fin 200704)
    (hr : r.val = t.val * 1024 + y.val) :
    (iblk3 (F := Ideal) V c 1 t : Vec Ideal S1024x64 .f32) (ix2 y k)
      = (V c main_v66 : S200704x64.Idx → EReal) (ix2 r k) := by
  obtain ⟨-, -, e0, e1, -⟩ := row_block t
  unfold iblk3
  show (V c main_v66 : S200704x64.Idx → EReal) (((cfg3.win 1).blk t).view.emb (ix2 y k)) = _
  refine congrArg (V c main_v66 : S200704x64.Idx → EReal) (funext fun a => Fin.ext ?_)
  match a with
  | ⟨0, _⟩ => show win3_1.index t (0 : Fin 2) * 1024 + 1 * y.val = r.val; omega
  | ⟨1, _⟩ => show win3_1.index t (1 : Fin 2) * 64 + 1 * k.val = k.val; omega

/-- What point t writes back is rows 1024·t … 1024·t + 1023 of the edge scores of the two tables. -/
theorem flushed_eq (c : Dev nD) (t : Fin cfg3.N) :
    (dat3 (F := Ideal) V c).flushed 2 t
      = ((cfg3.win 2).blk t).view.read (Elt Ideal) (Cert.Spec.score 200704 64 (V c main_v65) (V c main_v66)) := by
  show (cfg3.win 2).cut (grid3.coords t) ((dat3 V c).after 2 t) = _
  rw [after3_2]
  unfold out3_2
  rw [View.canon_unit_zero zero_off1]
  simp only [View.ld_unit_zero (S := S1024x64) zero_off2]
  funext j
  obtain ⟨y, rfl⟩ : ∃ y : Fin 1024, j = ix1 y := ⟨j 0, eq_ix1 j⟩
  show k3_pay1 (iblk3 V c 0 t) (iblk3 V c 1 t) (ix1 y)
      = Cert.Spec.score 200704 64 (V c main_v65) (V c main_v66) (((cfg3.win 2).blk t).view.emb (ix1 y))
  rw [pay_apply]
  obtain ⟨-, -, -, -, e2⟩ := row_block t
  have hr : ((((cfg3.win 2).blk t).view.emb (ix1 y)) (0 : Fin 1)).val = t.val * 1024 + y.val := by
    show win3_2.index t (0 : Fin 1) * 1024 + 1 * y.val = _
    rw [e2]; omega
  unfold Cert.Spec.score
  refine congrArg (Cert.Spec.zero + ·) (Finset.sum_congr rfl fun k _ => ?_)
  exact congrArg₂ (· * ·) (zs_block V c t y k _ hr) (zt_block V c t y k _ hr)

/-- An output row is in point t's block iff it lies among the 1024 rows from 1024 times the block's index on. -/
theorem mem_blk (t : Fin cfg3.N) (i : S200704.Idx) :
    i ∈ ((cfg3.win 2).blk t).view.set ↔ ∀ a : Fin 1, win3_2.index t a * S1024.size a ≤ (i a).val
      ∧ (i a).val < win3_2.index t a * S1024.size a + S1024.size a := by
  show i ∈ ((View.whole main_v67).slice (win3_2.rect t)).set ↔ _
  rw [View.set_slice_whole, Rect.mem_set_unit]
  exact Iff.rfl

/-- Every output row r is written back by some point: the point r / 1024, since 200704 = 196 · 1024. -/
theorem cover (i : S200704.Idx) :
    ∃ t : Fin cfg3.N, (cfg3.win 2).flush t = true ∧ i ∈ ((cfg3.win 2).blk t).view.set := by
  have hi : (i 0).val < 200704 := (i 0).isLt
  obtain ⟨t, ht⟩ : ∃ t : Fin cfg3.N, t.val = (i 0).val / 1024 :=
    ⟨⟨(i 0).val / 1024, by rw [show cfg3.N = 196 from N_3]; omega⟩, rfl⟩
  obtain ⟨-, -, -, -, e2⟩ := row_block t
  refine ⟨t, flush3_2 t, ?_⟩
  rw [mem_blk]
  intro a
  match a with
  | ⟨0, _⟩ =>
    show win3_2.index t (0 : Fin 1) * 1024 ≤ (i 0).val ∧ (i 0).val < win3_2.index t (0 : Fin 1) * 1024 + 1024
    rw [e2, ht]; omega

/-- Region 3's output array after the region: the edge scores of the two padded endpoint tables the region is entered with. -/
theorem final (c : Dev nD) :
    (dat3 (F := Ideal) V c).arrAt 2 cfg3.N
      = Cert.Spec.score 200704 64 (V c main_v65) (V c main_v66) :=
  (dat3 (F := Ideal) V c).arrAt_eq_of_cover 2 _ (fun t _ => flushed_eq V c t) cover

end Cert.KernelIdeal.Region3

end
-- ==== Proof.KHostB.lean ====
import proofs.«135867_j55937654063333_1_alg».proof.Proof.Gen.KernelIdeal.Frame
import proofs.«135867_j55937654063333_1_alg».proof.Proof.Spec
import proofs.«135867_j55937654063333_1_alg».proof.Proof.KChain
import proofs.«135867_j55937654063333_1_alg».proof.Proof.KRegion3
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

set_option maxRecDepth 16384

noncomputable section

open scoped BigOperators

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

namespace Tail

/-! ## Padding rows below a table do not reach the rows a final cut keeps -/

/-- A table padded below by extra rows, read at a row of the original table, is the table there. -/
theorem pad_rows_apply (A : FA S200000x64) (z : (⟨S_, .f32⟩ : BufTy).Contents (Elt Ideal))
    (e : Fin 200000) (he : e.val < 200704) (k : Fin 64) :
    pad S200704x64 ![0, 0] ![704, 0] ![0, 0] A z pads_S200000x64_S200704x64_07040_000 h_S_ (ix2 (⟨e.val, he⟩ : Fin 200704) k)
      = A (ix2 e k) := by
  refine pad_apply_of_inside _ _ _ A z _ _ _ (ix2 e k) (fun a => ?_)
  match a with
  | ⟨0, _⟩ => simp
  | ⟨1, _⟩ => simp

/-- The scores of two padded tables, cut back to the original rows, are the scores of the tables. -/
theorem score_pad_slice (A B : FA S200000x64) (z z' : (⟨S_, .f32⟩ : BufTy).Contents (Elt Ideal)) :
    extractStridedSlice S200000 ![0] (Cert.Spec.score 200704 64
        (pad S200704x64 ![0, 0] ![704, 0] ![0, 0] A z pads_S200000x64_S200704x64_07040_000 h_S_)
        (pad S200704x64 ![0, 0] ![704, 0] ![0, 0] B z' pads_S200000x64_S200704x64_07040_000 h_S_))
      slices_S200704_S200000_0 = Cert.Spec.score 200000 64 A B := by
  funext i
  obtain ⟨e, rfl⟩ : ∃ e : Fin 200000, i = ix1 e := ⟨i 0, eq_ix1 i⟩
  have he : e.val < 200704 := by omega
  refine (extractStridedSlice_apply _ _ _ (ix1 e) (ix1 (⟨e.val, he⟩ : Fin 200704)) (fun a => ?_)).trans ?_
  · match a with
    | ⟨0, _⟩ => simp
  · unfold Cert.Spec.score
    refine congrArg (Cert.Spec.zero + ·) (Finset.sum_congr rfl fun k _ => ?_)
    show pad S200704x64 ![0, 0] ![704, 0] ![0, 0] A z pads_S200000x64_S200704x64_07040_000 h_S_ (ix2 (⟨e.val, he⟩ : Fin 200704) k)
        * pad S200704x64 ![0, 0] ![704, 0] ![0, 0] B z' pads_S200000x64_S200704x64_07040_000 h_S_ (ix2 (⟨e.val, he⟩ : Fin 200704) k)
      = A (ix2 e k) * B (ix2 e k)
    rw [pad_rows_apply, pad_rows_apply]

/-! ## The last stretch and the decode region -/

/-- The result buffer is the first 200000 entries of the decode region's output. -/
theorem W12_v68 (c : Dev nD) :
    W12 m ρ c (Proc.devRef .tc main_v68)
      = extractStridedSlice S200000 ![0] (W11 m ρ c (Proc.devRef .tc main_v67)) slices_S200704_S200000_0 := by
  show StableHlo.after hostOps4 (W11 m ρ c) (Proc.devRef .tc main_v68) = _
  after_results

/-- The decode region's output is the scores of its two padded inputs. -/
theorem W11_v67 (c : Dev nD) :
    W11 m ρ c (Proc.devRef .tc main_v67)
      = Cert.Spec.score 200704 64 (V10 m ρ c main_v65) (V10 m ρ c main_v66) :=
  (W11_arr m ρ c 2).trans (Cert.KernelIdeal.Region3.final (V10 m ρ) c)

/-- A buffer that no operation of a host stretch writes holds after it what it held before. -/
local macro "host_skip" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## What each host stretch after region 2 computes, from any contents -/

section Stretches

variable (W : Valuation τ sig (Elt Ideal))

/-- The label stretch gathers the table at the wrapped first endpoints. -/
theorem gather0_v57 :
    StableHlo.after hostOps3 W (Proc.devRef .tc main_v57)
      = Host.gather gather_S50000x64_S200000x1_S200000x64_1_0_n_n_0_1_164 (W (Proc.devRef .tc main_v46) : FA S50000x64)
          (lblCol0 (W (Proc.devRef .tc main_arg2) : IA S2x200000)) := by
  after_results
  rfl

/-- The label stretch gathers the table at the wrapped second endpoints. -/
theorem gather1_v64 :
    StableHlo.after hostOps3 W (Proc.devRef .tc main_v64)
      = Host.gather gather_S50000x64_S200000x1_S200000x64_1_0_n_n_0_1_164 (W (Proc.devRef .tc main_v46) : FA S50000x64)
          (lblCol1 (W (Proc.devRef .tc main_arg2) : IA S2x200000)) := by
  after_results_simp
  rfl

/-- The first padding stretch: the operand with 704 rows of the converted constant below. -/
theorem pad0_v65 :
    StableHlo.after hostOps3_1 W (Proc.devRef .tc main_v65)
      = pad S200704x64 ![0, 0] ![704, 0] ![0, 0] (W (Proc.devRef .tc main_v57) : FA S200000x64)
          (sitofp (F := Ideal) .f32 (W (Proc.devRef .tc main_c_13) : IA S_) : FA S_) pads_S200000x64_S200704x64_07040_000 h_S_ := by
  after_results
  rfl

/-- The second padding stretch: the operand with 704 rows of the converted constant below. -/
theorem pad1_v66 :
    StableHlo.after hostOps3_3 W (Proc.devRef .tc main_v66)
      = pad S200704x64 ![0, 0] ![704, 0] ![0, 0] (W (Proc.devRef .tc main_v64) : FA S200000x64)
          (sitofp (F := Ideal) .f32 (W (Proc.devRef .tc main_c_14) : IA S_) : FA S_) pads_S200000x64_S200704x64_07040_000 h_S_ := by
  after_results
  rfl

end Stretches

/-! ## The buffers the tail reads, walked across the boundaries -/

/-- The label edge list is as launched when region 2 ends: nothing before writes it. -/
theorem W6_arg2 (c : Dev nD) :
    W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := by
          show StableHlo.after hostOps2 (W4 m ρ c) (Proc.devRef .tc main_arg2) = _
          host_skip hostOps2
    _ = W3 m ρ c (Proc.devRef .tc main_arg2) := W4_of_ne m ρ c main_arg2 (by decide)
    _ = W2 m ρ c (Proc.devRef .tc main_arg2) := by
          show StableHlo.after hostOps1 (W2 m ρ c) (Proc.devRef .tc main_arg2) = _
          host_skip hostOps1
    _ = W1 m ρ c (Proc.devRef .tc main_arg2) := W2_of_ne m ρ c main_arg2 (by decide)
    _ = W0 m ρ c (Proc.devRef .tc main_arg2) := by
          show StableHlo.after hostOps0 (W0 m ρ c) (Proc.devRef .tc main_arg2) = _
          host_skip hostOps0
    _ = m ((c : Thread nD τ).loc main_arg2) := rfl

/-- The first gathered table, after the label stretch. -/
theorem W7_v57 (c : Dev nD) :
    W7 m ρ c (Proc.devRef .tc main_v57)
      = Host.gather gather_S50000x64_S200000x1_S200000x64_1_0_n_n_0_1_164 (W6 m ρ c (Proc.devRef .tc main_v46) : FA S50000x64)
          (lblCol0 (m ((c : Thread nD τ).loc main_arg2))) :=
  (gather0_v57 (W6 m ρ c)).trans (by rw [W6_arg2])

/-- The second gathered table, after the label stretch. -/
theorem W7_v64 (c : Dev nD) :
    W7 m ρ c (Proc.devRef .tc main_v64)
      = Host.gather gather_S50000x64_S200000x1_S200000x64_1_0_n_n_0_1_164 (W6 m ρ c (Proc.devRef .tc main_v46) : FA S50000x64)
          (lblCol1 (m ((c : Thread nD τ).loc main_arg2))) :=
  (gather1_v64 (W6 m ρ c)).trans (by rw [W6_arg2])

/-- The first padded table at region 3's entry. -/
theorem W10_v65 (c : Dev nD) :
    W10 m ρ c (Proc.devRef .tc main_v65)
      = pad S200704x64 ![0, 0] ![704, 0] ![0, 0] (W7 m ρ c (Proc.devRef .tc main_v57) : FA S200000x64)
          (sitofp (F := Ideal) .f32 (W7 m ρ c (Proc.devRef .tc main_c_13) : IA S_) : FA S_) pads_S200000x64_S200704x64_07040_000 h_S_ :=
  calc W10 m ρ c (Proc.devRef .tc main_v65)
    _ = W9 m ρ c (Proc.devRef .tc main_v65) := by
          show StableHlo.after hostOps3_3 (W9 m ρ c) (Proc.devRef .tc main_v65) = _
          host_skip hostOps3_3
    _ = W8 m ρ c (Proc.devRef .tc main_v65) := by
          show StableHlo.after hostOps3_2 (W8 m ρ c) (Proc.devRef .tc main_v65) = _
          host_skip hostOps3_2
    _ = _ := pad0_v65 (W7 m ρ c)

/-- The second gathered table is untouched by the first padding stretch and the constant after it. -/
theorem W9_v64 (c : Dev nD) :
    W9 m ρ c (Proc.devRef .tc main_v64) = W7 m ρ c (Proc.devRef .tc main_v64) :=
  calc W9 m ρ c (Proc.devRef .tc main_v64)
    _ = W8 m ρ c (Proc.devRef .tc main_v64) := by
          show StableHlo.after hostOps3_2 (W8 m ρ c) (Proc.devRef .tc main_v64) = _
          host_skip hostOps3_2
    _ = W7 m ρ c (Proc.devRef .tc main_v64) := by
          show StableHlo.after hostOps3_1 (W7 m ρ c) (Proc.devRef .tc main_v64) = _
          host_skip hostOps3_1

/-- The second padded table at region 3's entry. -/
theorem W10_v66 (c : Dev nD) :
    W10 m ρ c (Proc.devRef .tc main_v66)
      = pad S200704x64 ![0, 0] ![704, 0] ![0, 0] (W7 m ρ c (Proc.devRef .tc main_v64) : FA S200000x64)
          (sitofp (F := Ideal) .f32 (W9 m ρ c (Proc.devRef .tc main_c_14) : IA S_) : FA S_) pads_S200000x64_S200704x64_07040_000 h_S_ :=
  (pad1_v66 (W9 m ρ c)).trans (by rw [W9_v64])

end Tail

/-! ## The tail -/

open Tail

/-- The last boundary holds at the result buffer the edge scores of what region 2 left, gathered at the label edges' endpoints. -/
theorem tail_eq (c : Dev nD) :
    W12 m ρ c (Proc.devRef .tc main_v68)
      = Cert.Spec.score 200000 64
          (Host.gather gather_S50000x64_S200000x1_S200000x64_1_0_n_n_0_1_164 (W6 m ρ c (Proc.devRef .tc main_v46)) (lblCol0 (m ((c : Thread nD τ).loc main_arg2))))
          (Host.gather gather_S50000x64_S200000x1_S200000x64_1_0_n_n_0_1_164 (W6 m ρ c (Proc.devRef .tc main_v46)) (lblCol1 (m ((c : Thread nD τ).loc main_arg2)))) := by
  rw [W12_v68, W11_v67]
  show extractStridedSlice S200000 ![0] (Cert.Spec.score 200704 64 (W10 m ρ c (Proc.devRef .tc main_v65)) (W10 m ρ c (Proc.devRef .tc main_v66)))
      slices_S200704_S200000_0 = _
  rw [W10_v65, W10_v66, score_pad_slice, W7_v57, W7_v64]

end Cert.KernelIdeal.Host

end
-- ==== Proof.KHost.lean ====
import proofs.«135867_j55937654063333_1_alg».proof.Proof.Gen.KernelIdeal.Frame
import proofs.«135867_j55937654063333_1_alg».proof.Proof.Spec
import proofs.«135867_j55937654063333_1_alg».proof.Proof.KChain
import proofs.«135867_j55937654063333_1_alg».proof.Proof.KHostA
import proofs.«135867_j55937654063333_1_alg».proof.Proof.KHostB
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- What the last boundary holds at the result buffer: `out` of the launch contents of the twelve arguments. -/
theorem result_eq (c : Dev nD) :
    W12 m ρ c (Proc.devRef .tc main_v68)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  rw [tail_eq, z_eq, h2_eq, h1_eq]
  rfl

end Cert.KernelIdeal.Host

end
-- ==== Proof.RefValue.lean ====
import proofs.«135867_j55937654063333_1_alg».proof.Proof.Gen.ReferenceIdeal.Run
import proofs.«135867_j55937654063333_1_alg».proof.Proof.Gen.ReferenceIdeal.Read
import proofs.«135867_j55937654063333_1_alg».proof.Proof.Spec
import proofs.«135867_j55937654063333_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Host

open Cert.ReferenceIdeal Cert.ReferenceIdeal.Gen
open Idealize.ShloMosaic Idealize.ShloMosaic.TcCoe Idealize.ShloMosaic.ValueIdx Idealize.SL.Sem Idealize.ShloMosaic.StableHlo

/-- Integer and float arrays of a shape, at the exact instance. -/
abbrev IA (s : Shape) := (⟨s, .i32⟩ : BufTy).Contents (Elt Ideal)
abbrev FA (s : Shape) := (⟨s, .f32⟩ : BufTy).Contents (Elt Ideal)

/-! ## The host chains of @main, as the program spells them -/

/-- Row `r` of an edge list, as a vector of 800000 node numbers. -/
def srcRow (ei : IA S2x800000) : IA S800000 :=
  shapeCast _ (extractStridedSlice S1x800000 ![0, 0] ei slices_S2x800000_S1x800000_0_0) shapeCasts_S1x800000_S800000
def tgtRow (ei : IA S2x800000) : IA S800000 :=
  shapeCast _ (extractStridedSlice S1x800000 ![1, 0] ei slices_S2x800000_S1x800000_1_0) shapeCasts_S1x800000_S800000

/-- A negative node number counts from the end: n < 0 becomes n + 50000. -/
def wrap800 (s : IA S800000) : IA S800000 :=
  select (cmpi .slt s (broadcastInDim S800000 ![] bcast_S_S800000 (constantI S_ 32 0#32)))
    (addi s (broadcastInDim S800000 ![] bcast_S_S800000 (constantI S_ 32 50000#32))) s

/-- The gather's start indices (sources, wrapped) and the scatter's indices (targets, as given), as columns. -/
def srcCol (ei : IA S2x800000) : IA S800000x1 := broadcastInDim S800000x1 ![0] bcast_S800000_S800000x1_0 (wrap800 (srcRow ei))
def tgtCol (ei : IA S2x800000) : IA S800000x1 := broadcastInDim S800000x1 ![0] bcast_S800000_S800000x1_0 (tgtRow ei)

/-- The in-degree of every node: ones scattered onto zeros at the targets. -/
def deg (ei : IA S2x800000) : FA S50000 :=
  Host.scatterAdd (F := Ideal) scatter_S50000_S800000x1_S800000_n_0_0_1 (broadcastInDim S50000 ![] bcast_S_S50000 (constant (F := Ideal) S_ .f32 0x00000000#32))
    (tgtCol ei) (broadcastInDim S800000 ![] bcast_S_S800000 (constant (F := Ideal) S_ .f32 0x3F800000#32))

/-- The neighbour sums of a feature table: the sources' rows scattered onto zeros at the targets. -/
def agg64 (h : FA S50000x64) (ei : IA S2x800000) : FA S50000x64 :=
  Host.scatterAdd (F := Ideal) scatter_S50000x64_S800000x1_S800000x64_1_0_0_1 (broadcastInDim S50000x64 ![] bcast_S_S50000x64 (constant (F := Ideal) S_ .f32 0x00000000#32))
    (tgtCol ei) (Host.gather gather_S50000x64_S800000x1_S800000x64_1_0_n_n_0_1_164 h (srcCol ei))
def agg128 (h : FA S50000x128) (ei : IA S2x800000) : FA S50000x128 :=
  Host.scatterAdd (F := Ideal) scatter_S50000x128_S800000x1_S800000x128_1_0_0_1 (broadcastInDim S50000x128 ![] bcast_S_S50000x128 (constant (F := Ideal) S_ .f32 0x00000000#32))
    (tgtCol ei) (Host.gather gather_S50000x128_S800000x1_S800000x128_1_0_n_n_0_1_1128 h (srcCol ei))

/-- The label edges' endpoints, wrapped, as columns. -/
def lblRow0 (eli : IA S2x200000) : IA S200000 :=
  shapeCast _ (extractStridedSlice S1x200000 ![0, 0] eli slices_S2x200000_S1x200000_0_0) shapeCasts_S1x200000_S200000
def lblRow1 (eli : IA S2x200000) : IA S200000 :=
  shapeCast _ (extractStridedSlice S1x200000 ![1, 0] eli slices_S2x200000_S1x200000_1_0) shapeCasts_S1x200000_S200000
def wrap200 (s : IA S200000) : IA S200000 :=
  select (cmpi .slt s (broadcastInDim S200000 ![] bcast_S_S200000 (constantI S_ 32 0#32)))
    (addi s (broadcastInDim S200000 ![] bcast_S_S200000 (constantI S_ 32 50000#32))) s
def lblCol0 (eli : IA S2x200000) : IA S200000x1 := broadcastInDim S200000x1 ![0] bcast_S200000_S200000x1_0 (wrap200 (lblRow0 eli))
def lblCol1 (eli : IA S2x200000) : IA S200000x1 := broadcastInDim S200000x1 ![0] bcast_S200000_S200000x1_0 (wrap200 (lblRow1 eli))

/-! ## The three layers and the scores, over those chains -/

def layer1 (x : FA S50000x64) (ei : IA S2x800000) (Wl Wr : FA S64x128) (b : FA S128) : FA S50000x128 :=
  Cert.Spec.dense 50000 64 128 true (agg64 x ei) (fun i => deg ei (ix1 (i 0))) x Wl Wr (fun i => b (ix1 (i 1)))
def layer2 (h : FA S50000x128) (ei : IA S2x800000) (Wl Wr : FA S128x128) (b : FA S128) : FA S50000x128 :=
  Cert.Spec.dense 50000 128 128 true (agg128 h ei) (fun i => deg ei (ix1 (i 0))) h Wl Wr (fun i => b (ix1 (i 1)))
def layer3 (h : FA S50000x128) (ei : IA S2x800000) (Wl Wr : FA S128x64) (b : FA S64) : FA S50000x64 :=
  Cert.Spec.dense 50000 128 64 false (agg128 h ei) (fun i => deg ei (ix1 (i 0))) h Wl Wr (fun i => b (ix1 (i 1)))

/-- The program's result as one function of its twelve arguments. -/
def out (x : FA S50000x64) (ei : IA S2x800000) (eli : IA S2x200000) (Wl1 Wr1 : FA S64x128) (b1 : FA S128)
    (Wl2 Wr2 : FA S128x128) (b2 : FA S128) (Wl3 Wr3 : FA S128x64) (b3 : FA S64) : FA S200000 :=
  let z := layer3 (layer2 (layer1 x ei Wl1 Wr1 b1) ei Wl2 Wr2 b2) ei Wl3 Wr3 b3
  Cert.Spec.score 200000 64
    (Host.gather gather_S50000x64_S200000x1_S200000x64_1_0_n_n_0_1_164 z (lblCol0 eli))
    (Host.gather gather_S50000x64_S200000x1_S200000x64_1_0_n_n_0_1_164 z (lblCol1 eli))

/-! ## The opaque stages are the chains above -/

theorem v13_eq (x0 : FA S50000x64) (x1 : IA S2x800000) : Read.val_main_v13 (F := Ideal) x0 x1 = agg64 x0 x1 := rfl
theorem v17_eq (x1 : IA S2x800000) : Read.val_main_v17 (F := Ideal) x1 = deg x1 := rfl

/-! ## Index bookkeeping of the first layer -/

theorem lidx23 (r : Fin 50000) (j : Fin 128) (k : Fin 64) : Read.lidx_main_v23 (ix2 r j) k = ix2 r k :=
  funext fun a => Fin.ext (by match a with | ⟨0, _⟩ => rfl | ⟨1, _⟩ => rfl)
theorem ridx23 (r : Fin 50000) (j : Fin 128) (k : Fin 64) : Read.ridx_main_v23 (ix2 r j) k = ix2 k j :=
  funext fun a => Fin.ext (by match a with | ⟨0, _⟩ => rfl | ⟨1, _⟩ => rfl)
theorem lidx24 (r : Fin 50000) (j : Fin 128) (k : Fin 64) : Read.lidx_main_v24 (ix2 r j) k = ix2 r k :=
  funext fun a => Fin.ext (by match a with | ⟨0, _⟩ => rfl | ⟨1, _⟩ => rfl)
theorem ridx24 (r : Fin 50000) (j : Fin 128) (k : Fin 64) : Read.ridx_main_v24 (ix2 r j) k = ix2 k j :=
  funext fun a => Fin.ext (by match a with | ⟨0, _⟩ => rfl | ⟨1, _⟩ => rfl)
theorem idx2021 (r : Fin 50000) (k : Fin 64) : Read.idx_main_v20 (Read.idx_main_v21 (ix2 r k)) = ix1 r :=
  funext fun a => Fin.ext (by match a with | ⟨0, _⟩ => rfl)
theorem idx2627 (r : Fin 50000) (j : Fin 128) : Read.idx_main_v26 (Read.idx_main_v27 (ix2 r j)) = ix1 j :=
  funext fun a => Fin.ext (by match a with | ⟨0, _⟩ => rfl)

/-- The mean of the neighbour sums, entry by entry. -/
theorem mean1 (x0 : FA S50000x64) (x1 : IA S2x800000) (r : Fin 50000) (k : Fin 64) :
    Read.val_main_v22 (F := Ideal) x0 x1 (ix2 r k)
      = Ideal.div (agg64 x0 x1 (ix2 r k)) (max (deg x1 (ix1 r)) Cert.Spec.one) := by
  rw [Read.val_main_v22_apply, Read.val_main_v21_apply, Read.val_main_v20_apply, Read.val_main_v19_apply,
    Read.val_main_v18_apply, Read.val_main_cst_3_apply, idx2021, v13_eq, v17_eq]
  rfl

theorem layer1_eq (x0 : FA S50000x64) (x1 : IA S2x800000) (x3 x4 : FA S64x128) (x5 : FA S128) :
    Read.val_main_v29 (F := Ideal) x0 x1 x3 x4 x5 = layer1 x0 x1 x3 x4 x5 := by
  funext i
  obtain ⟨r, j, rfl⟩ : ∃ (r : Fin 50000) (j : Fin 128), i = ix2 r j := ⟨i 0, i 1, eq_ix2 i⟩
  rw [Read.val_main_v29_apply, Read.val_main_v28_apply, Read.val_main_v25_apply, Read.val_main_v23_apply,
    Read.val_main_v24_apply, Read.val_main_v27_apply, Read.val_main_v26_apply, Read.val_main_call0_v0_apply,
    Read.val_main_call0_cst_apply, idx2627]
  have h1 : ∀ k : Fin 64, Read.val_main_v22 (F := Ideal) x0 x1 (Read.lidx_main_v23 (ix2 r j) k) * x3 (Read.ridx_main_v23 (ix2 r j) k)
      = Ideal.div (agg64 x0 x1 (ix2 r k)) (max (deg x1 (ix1 r)) Cert.Spec.one) * x3 (ix2 k j) := fun k => by
    rw [lidx23, ridx23, mean1]
  have h2 : ∀ k : Fin 64, x0 (Read.lidx_main_v24 (ix2 r j) k) * x4 (Read.ridx_main_v24 (ix2 r j) k)
      = x0 (ix2 r k) * x4 (ix2 k j) := fun k => by
    rw [lidx24, ridx24]
  rw [Finset.sum_congr rfl (fun k _ => h1 k), Finset.sum_congr rfl (fun k _ => h2 k)]
  unfold layer1 Cert.Spec.dense Cert.Spec.act
  rw [if_pos rfl]
  rfl

/-! ## The second layer -/

theorem v39_eq (x0 : FA S50000x64) (x1 : IA S2x800000) (x3 x4 : FA S64x128) (x5 : FA S128) :
    Read.val_main_v39 (F := Ideal) x0 x1 x3 x4 x5 = agg128 (Read.val_main_v29 (F := Ideal) x0 x1 x3 x4 x5) x1 := rfl
theorem v43_eq (x1 : IA S2x800000) : Read.val_main_v43 (F := Ideal) x1 = deg x1 := rfl

theorem lidx49 (r : Fin 50000) (j : Fin 128) (k : Fin 128) : Read.lidx_main_v49 (ix2 r j) k = ix2 r k :=
  funext fun a => Fin.ext (by match a with | ⟨0, _⟩ => rfl | ⟨1, _⟩ => rfl)
theorem ridx49 (r : Fin 50000) (j : Fin 128) (k : Fin 128) : Read.ridx_main_v49 (ix2 r j) k = ix2 k j :=
  funext fun a => Fin.ext (by match a with | ⟨0, _⟩ => rfl | ⟨1, _⟩ => rfl)
theorem lidx50 (r : Fin 50000) (j : Fin 128) (k : Fin 128) : Read.lidx_main_v50 (ix2 r j) k = ix2 r k :=
  funext fun a => Fin.ext (by match a with | ⟨0, _⟩ => rfl | ⟨1, _⟩ => rfl)
theorem ridx50 (r : Fin 50000) (j : Fin 128) (k : Fin 128) : Read.ridx_main_v50 (ix2 r j) k = ix2 k j :=
  funext fun a => Fin.ext (by match a with | ⟨0, _⟩ => rfl | ⟨1, _⟩ => rfl)
theorem idx4647 (r : Fin 50000) (k : Fin 128) : Read.idx_main_v46 (Read.idx_main_v47 (ix2 r k)) = ix1 r :=
  funext fun a => Fin.ext (by match a with | ⟨0, _⟩ => rfl)
theorem idx5253 (r : Fin 50000) (j : Fin 128) : Read.idx_main_v52 (Read.idx_main_v53 (ix2 r j)) = ix1 j :=
  funext fun a => Fin.ext (by match a with | ⟨0, _⟩ => rfl)

/-- The mean of the neighbour sums of the first layer's output, entry by entry. -/
theorem mean2 (x0 : FA S50000x64) (x1 : IA S2x800000) (x3 x4 : FA S64x128) (x5 : FA S128) (r : Fin 50000) (k : Fin 128) :
    Read.val_main_v48 (F := Ideal) x0 x1 x3 x4 x5 (ix2 r k)
      = Ideal.div (agg128 (Read.val_main_v29 (F := Ideal) x0 x1 x3 x4 x5) x1 (ix2 r k)) (max (deg x1 (ix1 r)) Cert.Spec.one) := by
  rw [Read.val_main_v48_apply, Read.val_main_v47_apply, Read.val_main_v46_apply, Read.val_main_v45_apply,
    Read.val_main_v44_apply, Read.val_main_cst_9_apply, idx4647, v39_eq, v43_eq]
  rfl

theorem layer2_eq (x0 : FA S50000x64) (x1 : IA S2x800000) (x3 x4 : FA S64x128) (x5 : FA S128)
    (x6 x7 : FA S128x128) (x8 : FA S128) :
    Read.val_main_v55 (F := Ideal) x0 x1 x3 x4 x5 x6 x7 x8
      = layer2 (Read.val_main_v29 (F := Ideal) x0 x1 x3 x4 x5) x1 x6 x7 x8 := by
  funext i
  obtain ⟨r, j, rfl⟩ : ∃ (r : Fin 50000) (j : Fin 128), i = ix2 r j := ⟨i 0, i 1, eq_ix2 i⟩
  rw [Read.val_main_v55_apply, Read.val_main_v54_apply, Read.val_main_v51_apply, Read.val_main_v49_apply,
    Read.val_main_v50_apply, Read.val_main_v53_apply, Read.val_main_v52_apply, Read.val_main_call1_v0_apply,
    Read.val_main_call1_cst_apply, idx5253]
  have h1 : ∀ k : Fin 128, Read.val_main_v48 (F := Ideal) x0 x1 x3 x4 x5 (Read.lidx_main_v49 (ix2 r j) k) * x6 (Read.ridx_main_v49 (ix2 r j) k)
      = Ideal.div (agg128 (Read.val_main_v29 (F := Ideal) x0 x1 x3 x4 x5) x1 (ix2 r k)) (max (deg x1 (ix1 r)) Cert.Spec.one) * x6 (ix2 k j) := fun k => by
    rw [lidx49, ridx49, mean2]
  have h2 : ∀ k : Fin 128, Read.val_main_v29 (F := Ideal) x0 x1 x3 x4 x5 (Read.lidx_main_v50 (ix2 r j) k) * x7 (Read.ridx_main_v50 (ix2 r j) k)
      = Read.val_main_v29 (F := Ideal) x0 x1 x3 x4 x5 (ix2 r k) * x7 (ix2 k j) := fun k => by
    rw [lidx50, ridx50]
  rw [Finset.sum_congr rfl (fun k _ => h1 k), Finset.sum_congr rfl (fun k _ => h2 k)]
  generalize Read.val_main_v29 (F := Ideal) x0 x1 x3 x4 x5 = h
  unfold layer2 Cert.Spec.dense Cert.Spec.act
  rw [if_pos rfl]
  rfl

/-! ## The third layer (no activation) -/

theorem v65_eq (x0 : FA S50000x64) (x1 : IA S2x800000) (x3 x4 : FA S64x128) (x5 : FA S128)
    (x6 x7 : FA S128x128) (x8 : FA S128) :
    Read.val_main_v65 (F := Ideal) x0 x1 x3 x4 x5 x6 x7 x8
      = agg128 (Read.val_main_v55 (F := Ideal) x0 x1 x3 x4 x5 x6 x7 x8) x1 := rfl
theorem v69_eq (x1 : IA S2x800000) : Read.val_main_v69 (F := Ideal) x1 = deg x1 := rfl

theorem lidx75 (r : Fin 50000) (j : Fin 64) (k : Fin 128) : Read.lidx_main_v75 (ix2 r j) k = ix2 r k :=
  funext fun a => Fin.ext (by match a with | ⟨0, _⟩ => rfl | ⟨1, _⟩ => rfl)
theorem ridx75 (r : Fin 50000) (j : Fin 64) (k : Fin 128) : Read.ridx_main_v75 (ix2 r j) k = ix2 k j :=
  funext fun a => Fin.ext (by match a with | ⟨0, _⟩ => rfl | ⟨1, _⟩ => rfl)
theorem lidx76 (r : Fin 50000) (j : Fin 64) (k : Fin 128) : Read.lidx_main_v76 (ix2 r j) k = ix2 r k :=
  funext fun a => Fin.ext (by match a with | ⟨0, _⟩ => rfl | ⟨1, _⟩ => rfl)
theorem ridx76 (r : Fin 50000) (j : Fin 64) (k : Fin 128) : Read.ridx_main_v76 (ix2 r j) k = ix2 k j :=
  funext fun a => Fin.ext (by match a with | ⟨0, _⟩ => rfl | ⟨1, _⟩ => rfl)
theorem idx7273 (r : Fin 50000) (k : Fin 128) : Read.idx_main_v72 (Read.idx_main_v73 (ix2 r k)) = ix1 r :=
  funext fun a => Fin.ext (by match a with | ⟨0, _⟩ => rfl)
theorem idx7879 (r : Fin 50000) (j : Fin 64) : Read.idx_main_v78 (Read.idx_main_v79 (ix2 r j)) = ix1 j :=
  funext fun a => Fin.ext (by match a with | ⟨0, _⟩ => rfl)

/-- The mean of the neighbour sums of the second layer's output, entry by entry. -/
theorem mean3 (x0 : FA S50000x64) (x1 : IA S2x800000) (x3 x4 : FA S64x128) (x5 : FA S128)
    (x6 x7 : FA S128x128) (x8 : FA S128) (r : Fin 50000) (k : Fin 128) :
    Read.val_main_v74 (F := Ideal) x0 x1 x3 x4 x5 x6 x7 x8 (ix2 r k)
      = Ideal.div (agg128 (Read.val_main_v55 (F := Ideal) x0 x1 x3 x4 x5 x6 x7 x8) x1 (ix2 r k))
          (max (deg x1 (ix1 r)) Cert.Spec.one) := by
  rw [Read.val_main_v74_apply, Read.val_main_v73_apply, Read.val_main_v72_apply, Read.val_main_v71_apply,
    Read.val_main_v70_apply, Read.val_main_cst_15_apply, idx7273, v65_eq, v69_eq]
  rfl

theorem layer3_eq (x0 : FA S50000x64) (x1 : IA S2x800000) (x3 x4 : FA S64x128) (x5 : FA S128)
    (x6 x7 : FA S128x128) (x8 : FA S128) (x9 x10 : FA S128x64) (x11 : FA S64) :
    Read.val_main_v80 (F := Ideal) x0 x1 x3 x4 x5 x6 x7 x8 x9 x10 x11
      = layer3 (Read.val_main_v55 (F := Ideal) x0 x1 x3 x4 x5 x6 x7 x8) x1 x9 x10 x11 := by
  funext i
  obtain ⟨r, j, rfl⟩ : ∃ (r : Fin 50000) (j : Fin 64), i = ix2 r j := ⟨i 0, i 1, eq_ix2 i⟩
  rw [Read.val_main_v80_apply, Read.val_main_v77_apply, Read.val_main_v75_apply, Read.val_main_v76_apply,
    Read.val_main_v79_apply, Read.val_main_v78_apply, idx7879]
  have h1 : ∀ k : Fin 128, Read.val_main_v74 (F := Ideal) x0 x1 x3 x4 x5 x6 x7 x8 (Read.lidx_main_v75 (ix2 r j) k) * x9 (Read.ridx_main_v75 (ix2 r j) k)
      = Ideal.div (agg128 (Read.val_main_v55 (F := Ideal) x0 x1 x3 x4 x5 x6 x7 x8) x1 (ix2 r k)) (max (deg x1 (ix1 r)) Cert.Spec.one) * x9 (ix2 k j) := fun k => by
    rw [lidx75, ridx75, mean3]
  have h2 : ∀ k : Fin 128, Read.val_main_v55 (F := Ideal) x0 x1 x3 x4 x5 x6 x7 x8 (Read.lidx_main_v76 (ix2 r j) k) * x10 (Read.ridx_main_v76 (ix2 r j) k)
      = Read.val_main_v55 (F := Ideal) x0 x1 x3 x4 x5 x6 x7 x8 (ix2 r k) * x10 (ix2 k j) := fun k => by
    rw [lidx76, ridx76]
  rw [Finset.sum_congr rfl (fun k _ => h1 k), Finset.sum_congr rfl (fun k _ => h2 k)]
  generalize Read.val_main_v55 (F := Ideal) x0 x1 x3 x4 x5 x6 x7 x8 = h
  unfold layer3 Cert.Spec.dense Cert.Spec.act
  rw [if_neg (by decide)]
  rfl

/-! ## The edge scores -/

theorem v89_eq (x0 : FA S50000x64) (x1 : IA S2x800000) (x2 : IA S2x200000) (x3 x4 : FA S64x128) (x5 : FA S128)
    (x6 x7 : FA S128x128) (x8 : FA S128) (x9 x10 : FA S128x64) (x11 : FA S64) :
    Read.val_main_v89 (F := Ideal) x0 x1 x2 x3 x4 x5 x6 x7 x8 x9 x10 x11
      = Host.gather gather_S50000x64_S200000x1_S200000x64_1_0_n_n_0_1_164
          (Read.val_main_v80 (F := Ideal) x0 x1 x3 x4 x5 x6 x7 x8 x9 x10 x11) (lblCol0 x2) := rfl
theorem v98_eq (x0 : FA S50000x64) (x1 : IA S2x800000) (x2 : IA S2x200000) (x3 x4 : FA S64x128) (x5 : FA S128)
    (x6 x7 : FA S128x128) (x8 : FA S128) (x9 x10 : FA S128x64) (x11 : FA S64) :
    Read.val_main_v98 (F := Ideal) x0 x1 x2 x3 x4 x5 x6 x7 x8 x9 x10 x11
      = Host.gather gather_S50000x64_S200000x1_S200000x64_1_0_n_n_0_1_164
          (Read.val_main_v80 (F := Ideal) x0 x1 x3 x4 x5 x6 x7 x8 x9 x10 x11) (lblCol1 x2) := rfl

theorem idx100 (e : Fin 200000) (k : Fin 64) : Read.idx_main_v100 (ix1 e) k = ix2 e k :=
  funext fun a => Fin.ext (by match a with | ⟨0, _⟩ => rfl | ⟨1, _⟩ => rfl)

theorem score_eq (x0 : FA S50000x64) (x1 : IA S2x800000) (x2 : IA S2x200000) (x3 x4 : FA S64x128) (x5 : FA S128)
    (x6 x7 : FA S128x128) (x8 : FA S128) (x9 x10 : FA S128x64) (x11 : FA S64) :
    Read.val_main_v100 (F := Ideal) x0 x1 x2 x3 x4 x5 x6 x7 x8 x9 x10 x11
      = Cert.Spec.score 200000 64
          (Host.gather gather_S50000x64_S200000x1_S200000x64_1_0_n_n_0_1_164
            (Read.val_main_v80 (F := Ideal) x0 x1 x3 x4 x5 x6 x7 x8 x9 x10 x11) (lblCol0 x2))
          (Host.gather gather_S50000x64_S200000x1_S200000x64_1_0_n_n_0_1_164
            (Read.val_main_v80 (F := Ideal) x0 x1 x3 x4 x5 x6 x7 x8 x9 x10 x11) (lblCol1 x2)) := by
  funext i
  obtain ⟨e, rfl⟩ : ∃ e : Fin 200000, i = ix1 e := ⟨i 0, eq_ix1 i⟩
  rw [Read.val_main_v100_apply, Read.val_main_cst_20_apply]
  have h : ∀ k : Fin 64, Read.val_main_v99 (F := Ideal) x0 x1 x2 x3 x4 x5 x6 x7 x8 x9 x10 x11 (Read.idx_main_v100 (ix1 e) k)
      = Host.gather gather_S50000x64_S200000x1_S200000x64_1_0_n_n_0_1_164
            (Read.val_main_v80 (F := Ideal) x0 x1 x3 x4 x5 x6 x7 x8 x9 x10 x11) (lblCol0 x2) (ix2 e k)
        * Host.gather gather_S50000x64_S200000x1_S200000x64_1_0_n_n_0_1_164
            (Read.val_main_v80 (F := Ideal) x0 x1 x3 x4 x5 x6 x7 x8 x9 x10 x11) (lblCol1 x2) (ix2 e k) := fun k => by
    rw [idx100, Read.val_main_v99_apply, v89_eq, v98_eq]
    rfl
  rw [Finset.sum_congr rfl (fun k _ => h k)]
  generalize Read.val_main_v80 (F := Ideal) x0 x1 x3 x4 x5 x6 x7 x8 x9 x10 x11 = z
  rfl

variable (m : (ℓ : Loc nD τ sig) → Buf (Elt Ideal) ℓ)

/-- The reference run's result term is `out` of the launch contents of the twelve arguments. -/
theorem res_eq (c : Dev nD) :
    Cert.ReferenceIdeal.Value.res_main_v100 (F := Ideal) m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  rw [Read.val_main_v100_eq, score_eq, layer3_eq, layer2_eq, layer1_eq]
  rfl

end Cert.ReferenceIdeal.Host

end
-- ==== Proof.Bridge.lean ====
import proofs.«135867_j55937654063333_1_alg».proof.Proof.KChain
import proofs.«135867_j55937654063333_1_alg».proof.Proof.RefValue

noncomputable section

namespace Cert.Proof.Bridge

open Idealize.ShloMosaic

/-! The two programs spell the same host chains with the same dimension records: as functions of the twelve
    arguments their results are one function. -/

theorem srcCol_eq : @Cert.KernelIdeal.Host.srcCol = @Cert.ReferenceIdeal.Host.srcCol := rfl
theorem tgtCol_eq : @Cert.KernelIdeal.Host.tgtCol = @Cert.ReferenceIdeal.Host.tgtCol := rfl
theorem deg_eq : @Cert.KernelIdeal.Host.deg = @Cert.ReferenceIdeal.Host.deg := rfl
theorem agg64_eq : @Cert.KernelIdeal.Host.agg64 = @Cert.ReferenceIdeal.Host.agg64 := rfl
theorem agg128_eq : @Cert.KernelIdeal.Host.agg128 = @Cert.ReferenceIdeal.Host.agg128 := rfl
theorem lblCol0_eq : @Cert.KernelIdeal.Host.lblCol0 = @Cert.ReferenceIdeal.Host.lblCol0 := rfl
theorem lblCol1_eq : @Cert.KernelIdeal.Host.lblCol1 = @Cert.ReferenceIdeal.Host.lblCol1 := rfl
theorem layer1_eq : @Cert.KernelIdeal.Host.layer1 = @Cert.ReferenceIdeal.Host.layer1 := rfl
theorem layer2_eq : @Cert.KernelIdeal.Host.layer2 = @Cert.ReferenceIdeal.Host.layer2 := rfl
theorem layer3_eq : @Cert.KernelIdeal.Host.layer3 = @Cert.ReferenceIdeal.Host.layer3 := rfl

/-- The kernel program's result function is the reference's. -/
theorem out_eq : @Cert.KernelIdeal.Host.out = @Cert.ReferenceIdeal.Host.out := rfl

end Cert.Proof.Bridge

end
-- ==== Proof.lean ====
/-
  A three-layer mean-aggregation graph network followed by an edge score, blocked over the node axis, against
  its plain reference.

  Both programs compute, for every layer, the neighbour sums agg = Σ_{edges j→i} h_j (a row gather at the edge
  sources scattered-and-added at the edge targets), the in-degree deg (ones scattered-and-added at the targets),
  and then, row by row,
      h'_i = act ( (agg_i / max(deg_i, 1)) · Wl + h_i · Wr + b ),
  with act = max(·, 0) on the first two layers and the identity on the third; the result is, for every label
  edge (s, t), the inner product ⟨z_s, z_t⟩ of the third layer's rows.

  The blocked program does the gathers and scatter-adds with the same host operations as the reference; what
  differs is that each layer's dense part runs block by block over 5000 rows at a time (its two matrix products
  into zero accumulators, on operands narrowed to bf16, which is the identity over the extended reals) and that
  the edge score runs over 1024 edges at a time on tables padded by 704 zero rows, whose scores the final slice
  drops. Over the extended reals a blocked row is the whole array's row, a product into a zero accumulator is the
  plain sum over the contracted index, and a lane sum is the plain sum over the lane index: no law beyond
  re-indexing a finite sum is used, so the inputs' finiteness is never opened.

  The modules: Spec (the layer and the score as explicit sums), KRegion0-3 (each region's output array is that
  function of the arrays it is entered with: the blocks tile the array), KChain / KHostA / KHostB / KHost (the host
  stretches between the regions read through, each boundary's contents in terms of the previous one's), KRun (the
  run with the result buffer named at the last boundary), RefValue (the reference's stages are the same
  functions), Bridge (the two programs' chains are one function).
-/
import proofs.«135867_j55937654063333_1_alg».proof.Defs
import proofs.«135867_j55937654063333_1_alg».proof.Proof.Gen.Kernel
import proofs.«135867_j55937654063333_1_alg».proof.Proof.Gen.Kernel.Frame
import proofs.«135867_j55937654063333_1_alg».proof.Proof.Gen.KernelIdeal
import proofs.«135867_j55937654063333_1_alg».proof.Proof.Gen.KernelIdeal.Frame
import proofs.«135867_j55937654063333_1_alg».proof.Proof.Gen.ReferenceIdeal
import proofs.«135867_j55937654063333_1_alg».proof.Proof.Gen.ReferenceIdeal.Run
import proofs.«135867_j55937654063333_1_alg».proof.Proof.Gen.Pre_finite_inputs
import proofs.«135867_j55937654063333_1_alg».proof.Proof.KRun
import proofs.«135867_j55937654063333_1_alg».proof.Proof.KHost
import proofs.«135867_j55937654063333_1_alg».proof.Proof.RefValue
import proofs.«135867_j55937654063333_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Gen.frame m ρ

/-- So does the program read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the twelve arguments both programs end with the same scores: the blocked program's
    result buffer holds `out` of its arguments (the run with the result named, read through the boundaries), the
    reference's holds its own `out` of its arguments (the generated run, read stage by stage), and the two `out`s are
    one function. -/
theorem algebraic : Cert.algebraic_KernelIdeal_ReferenceIdeal := by
  intro m ρ m' ρ' _ hagree
  refine ⟨fun c => Cert.KernelIdeal.Host.out
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Host.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Host.res_eq, e0, e1, e2, e3, e4, e5, e6, e7, e8, e9, e10, e11]
    exact (congrFun (congrFun (congrFun (congrFun (congrFun (congrFun (congrFun (congrFun (congrFun (congrFun (congrFun (congrFun
      Cert.Proof.Bridge.out_eq _) _) _) _) _) _) _) _) _) _) _) _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
